-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v32_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v32_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S8192x2048 : Shape := ⟨2, ![8192, 2048]⟩
abbrev S2048x2048 : Shape := ⟨2, ![2048, 2048]⟩
abbrev S8192 : Shape := ⟨1, ![8192]⟩
abbrev S1 : Shape := ⟨1, ![1]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096 : S_.BroadcastsInDim S4096 (![] : Fin 0 → Fin S4096.rank)
  reducesTo_S4096_S_d0 : S4096.ReducesTo [0] S_
  bcast_S_S8192x2048 : S_.BroadcastsInDim S8192x2048 (![] : Fin 0 → Fin S8192x2048.rank)
  reducesTo_S8192x2048_S_d0_1 : S8192x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S8192 .f32) (main_arg12 : FVec F S1 .f32) (main_arg13 : FVec F S1 .f32) (main_v48 : IVec S_ 1) (main_v49 : FVec F S8192 .f32) (main_v50 : FVec F S8192 .f32) : IVec S_ 1 :=
  let main_v51 : IVec S8192 1 := cmpf .olt main_v49 main_v50
  let main_c_19 : IVec S_ 1 := constantI S_ 1 1#1
  let main_v52 : IVec S_ 1 := (fun x v => Host.reduce IntOp.andi x v reducesTo_S8192_S_d0 h_S_) main_v51 main_c_19
  let main_v53 : IVec S_ 1 := andi main_v48 main_v52
  let main_v54 : FVec F S8192 .f32 := Host.absf main_arg11
  let main_cst_20 : FVec F S_ .f32 := constant S_ .f32 0x7F800000#32
  let main_v55 : FVec F S8192 .f32 := broadcastInDim S8192 ![] bcast_S_S8192 main_cst_20
  let main_v56 : IVec S8192 1 := cmpf .olt main_v54 main_v55
  let main_c_21 : IVec S_ 1 := constantI S_ 1 1#1
  let main_v57 : IVec S_ 1 := (fun x v => Host.reduce IntOp.andi x v reducesTo_S8192_S_d0 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S2048x2048 .f32) (main_arg8 : FVec F S2048x2048 .f32) (main_arg9 : FVec F S2048x2048 .f32) (main_arg10 : FVec F S8192 .f32) (main_arg11 : FVec F S8192 .f32) (main_arg12 : FVec F S1 .f32) (main_arg13 : FVec F S1 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S8192 .f32 := Host.absf main_arg10
  let main_cst_18 : FVec F S_ .f32 := constant S_ .f32 0x7F800000#32
  let main_v50 : FVec F S8192 .f32 := broadcastInDim S8192 ![] bcast_S_S8192 main_cst_18
  fn_part3 (F := F) main_arg11 main_arg12 main_arg13 main_v48 main_v49 main_v50

def fn_part1 {F : FTy → Type} [FloatOps F] (main_arg4 : FVec F S4096x2048 .f32) (main_arg5 : FVec F S8192x2048 .f32) (main_arg6 : FVec F S8192x2048 .f32) (main_arg7 : FVec F S2048x2048 .f32) (main_arg8 : FVec F S2048x2048 .f32) (main_arg9 : FVec F S2048x2048 .f32) (main_arg10 : FVec F S8192 .f32) (main_arg11 : FVec F S8192 .f32) (main_arg12 : FVec F S1 .f32) (main_arg13 : FVec F S1 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192x2048 .f32 := Host.absf main_arg6
  let main_cst_10 : FVec F S_ .f32 := constant S_ .f32 0x7F800000#32
  let main_v30 : FVec F S8192x2048 .f32 := broadcastInDim S8192x2048 ![] bcast_S_S8192x2048 main_cst_10
  let main_v31 : IVec S8192x2048 1 := cmpf .olt main_v29 main_v30
  let main_c_11 : IVec S_ 1 := constantI S_ 1 1#1
  let main_v32 : IVec S_ 1 := (fun x v => Host.reduce IntOp.andi x v reducesTo_S8192x2048_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x2048 .f32) (main_arg1 : FVec F S4096 .f32) (main_arg2 : FVec F S4096 .f32) (main_arg3 : FVec F S4096x2048 .f32) (main_arg4 : FVec F S4096x2048 .f32) (main_arg5 : FVec F S8192x2048 .f32) (main_arg6 : FVec F S8192x2048 .f32) (main_arg7 : FVec F S2048x2048 .f32) (main_arg8 : FVec F S2048x2048 .f32) (main_arg9 : FVec F S2048x2048 .f32) (main_arg10 : FVec F S8192 .f32) (main_arg11 : FVec F S8192 .f32) (main_arg12 : FVec F S1 .f32) (main_arg13 : FVec F S1 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x2048 : Shape := ⟨2, ![4096, 2048]⟩
abbrev S4096 : Shape := ⟨1, ![4096]⟩
abbrev S8192x2048 : Shape := ⟨2, ![8192, 2048]⟩
abbrev S2048x2048 : Shape := ⟨2, ![2048, 2048]⟩
abbrev S8192 : Shape := ⟨1, ![8192]⟩
abbrev S1 : Shape := ⟨1, ![1]⟩
abbrev S4x2048x2048 : Shape := ⟨3, ![4, 2048, 2048]⟩
abbrev S4x2048 : Shape := ⟨2, ![4, 2048]⟩
abbrev S4096x1 : Shape := ⟨2, ![4096, 1]⟩
abbrev S256x2048 : Shape := ⟨2, ![256, 2048]⟩
abbrev S256x256 : Shape := ⟨2, ![256, 256]⟩
abbrev S4x2048x256 : Shape := ⟨3, ![4, 2048, 256]⟩
abbrev S2048x256 : Shape := ⟨2, ![2048, 256]⟩
abbrev S4x256 : Shape := ⟨2, ![4, 256]⟩
abbrev S256x1 : Shape := ⟨2, ![256, 1]⟩
abbrev S1x2048x256 : Shape := ⟨3, ![1, 2048, 256]⟩
abbrev S1x256 : Shape := ⟨2, ![1, 256]⟩
abbrev S256 : Shape := ⟨1, ![256]⟩

abbrev nBuf : Space → Nat
  | .hbm => 50
  | .vmem => 37
  | .smem => 0
  | _ => 0

abbrev bufTy : (tb : Table) → Fin (tcTables nBuf tb) → BufTy
  | .hbm, ⟨0, _⟩ => ⟨S4096x2048, .f32⟩
  | .hbm, ⟨1, _⟩ => ⟨S4096, .f32⟩
  | .hbm, ⟨2, _⟩ => ⟨S4096, .f32⟩
  | .hbm, ⟨3, _⟩ => ⟨S4096x2048, .f32⟩
  | .hbm, ⟨4, _⟩ => ⟨S4096x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S8192, .f32⟩
  | .hbm, ⟨11, _⟩ => ⟨S8192, .f32⟩
  | .hbm, ⟨12, _⟩ => ⟨S1, .f32⟩
  | .hbm, ⟨13, _⟩ => ⟨S1, .f32⟩
  | .hbm, ⟨14, _⟩ => ⟨S4x2048x2048, .f32⟩
  | .hbm, ⟨15, _⟩ => ⟨S4x2048x2048, .f32⟩
  | .hbm, ⟨16, _⟩ => ⟨S4x2048x2048, .bf16⟩
  | .hbm, ⟨17, _⟩ => ⟨S4x2048x2048, .f32⟩
  | .hbm, ⟨18, _⟩ => ⟨S4x2048x2048, .f32⟩
  | .hbm, ⟨19, _⟩ => ⟨S4x2048x2048, .bf16⟩
  | .hbm, ⟨20, _⟩ => ⟨S2048x2048, .f32⟩
  | .hbm, ⟨21, _⟩ => ⟨S2048x2048, .bf16⟩
  | .hbm, ⟨22, _⟩ => ⟨S2048x2048, .f32⟩
  | .hbm, ⟨23, _⟩ => ⟨S2048x2048, .bf16⟩
  | .hbm, ⟨24, _⟩ => ⟨S2048x2048, .f32⟩
  | .hbm, ⟨25, _⟩ => ⟨S2048x2048, .bf16⟩
  | .hbm, ⟨26, _⟩ => ⟨S4x2048, .f32⟩
  | .hbm, ⟨27, _⟩ => ⟨S4x2048, .f32⟩
  | .hbm, ⟨28, _⟩ => ⟨S4x2048, .f32⟩
  | .hbm, ⟨29, _⟩ => ⟨S4096x2048, .bf16⟩
  | .hbm, ⟨30, _⟩ => ⟨S4096x2048, .bf16⟩
  | .hbm, ⟨31, _⟩ => ⟨S4096x2048, .bf16⟩
  | .hbm, ⟨32, _⟩ => ⟨S1, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096x1, .f32⟩
  | .hbm, ⟨39, _⟩ => ⟨S1, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S4096x1, .f32⟩
  | .hbm, ⟨46, _⟩ => ⟨S4096x2048, .f32⟩
  | .hbm, ⟨47, _⟩ => ⟨S4096x2048, .bf16⟩
  | .hbm, ⟨48, _⟩ => ⟨S4096x2048, .f32⟩
  | .hbm, ⟨49, _⟩ => ⟨S4096x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x256, .f32⟩
  | .local _ .vmem, ⟨7, _⟩ => ⟨S256x256, .f32⟩
  | .local _ .vmem, ⟨8, _⟩ => ⟨S4x2048x256, .bf16⟩
  | .local _ .vmem, ⟨9, _⟩ => ⟨S4x2048x256, .bf16⟩
  | .local _ .vmem, ⟨10, _⟩ => ⟨S4x2048x256, .bf16⟩
  | .local _ .vmem, ⟨11, _⟩ => ⟨S4x2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S4x256, .f32⟩
  | .local _ .vmem, ⟨17, _⟩ => ⟨S4x256, .f32⟩
  | .local _ .vmem, ⟨18, _⟩ => ⟨S256x1, .f32⟩
  | .local _ .vmem, ⟨19, _⟩ => ⟨S256x1, .f32⟩
  | .local _ .vmem, ⟨20, _⟩ => ⟨S256x1, .f32⟩
  | .local _ .vmem, ⟨21, _⟩ => ⟨S256x1, .f32⟩
  | .local _ .vmem, ⟨22, _⟩ => ⟨S256x256, .f32⟩
  | .local _ .vmem, ⟨23, _⟩ => ⟨S256x256, .f32⟩
  | .local _ .vmem, ⟨24, _⟩ => ⟨S256x256, .bf16⟩
  | .local _ .vmem, ⟨25, _⟩ => ⟨S256x256, .bf16⟩
  | .local _ .vmem, ⟨26, _⟩ => ⟨S256x256, .f32⟩
  | .local _ .vmem, ⟨27, _⟩ => ⟨S256x256, .f32⟩
  | .local _ .vmem, ⟨28, _⟩ => ⟨S256x2048, .f32⟩
  | .local _ .vmem, ⟨29, _⟩ => ⟨S256x2048, .f32⟩
  | .local _ .vmem, ⟨30, _⟩ => ⟨S256x2048, .bf16⟩
  | .local _ .vmem, ⟨31, _⟩ => ⟨S256x2048, .bf16⟩
  | .local _ .vmem, ⟨32, _⟩ => ⟨S256x2048, .f32⟩
  | .local _ .vmem, ⟨33, _⟩ => ⟨S256x2048, .f32⟩
  | .local _ .vmem, ⟨34, _⟩ => ⟨S2048x2048, .bf16⟩
  | .local _ .vmem, ⟨35, _⟩ => ⟨S256x2048, .f32⟩
  | .local _ .vmem, ⟨36, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32_0 : Ref sig .tc := ⟨.hbm, 46, rfl⟩
abbrev main_v32_1 : Ref sig .tc := ⟨.hbm, 47, rfl⟩
abbrev main_v32_2 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg4_0 : Ref sig .tc := ⟨.vmem, 35, rfl⟩
abbrev cc1_stg4_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem4_0 : DmaSem sig := 35
abbrev cc1_sem4_1 : DmaSem sig := 36

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S8192x2048_S4x2048x2048 : S8192x2048.ShapeCasts S4x2048x2048
  transposes_S4x2048x2048_S4x2048x2048_0_2_1 : S4x2048x2048.Transposes [0, 2, 1] S4x2048x2048
  bitsLt_bf16_f32 : FTy.bits .bf16 < FTy.bits .f32
  transposes_S2048x2048_S2048x2048_1_0 : S2048x2048.Transposes [1, 0] S2048x2048
  shapeCasts_S8192_S4x2048 : S8192.ShapeCasts S4x2048
  bcast_S1_S4096_0 : S1.BroadcastsInDim S4096 (![0] : Fin 1 → Fin S4096.rank)
  bcast_S4096_S4096x1_0 : S4096.BroadcastsInDim S4096x1 (![0] : Fin 1 → Fin S4096x1.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x256_S256x256_0_0 : ∀ a, (![0, 0] : Fin 2 → Nat) a + S256x256.size a ≤ S256x256.size a
  h_S256x256 : 0 < S256x256.numel
  inb_S4x2048x256_S1x2048x256_0_0_0 : ∀ a, (![0, 0, 0] : Fin 3 → Nat) a + S1x2048x256.size a ≤ S4x2048x256.size a
  h_S1x2048x256 : 0 < S1x2048x256.numel
  shapeCasts_S1x2048x256_S2048x256 : S1x2048x256.ShapeCasts S2048x256
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S256x256 : S1x256.Broadcasts S256x256
  inb_S4x2048x256_S1x2048x256_1_0_0 : ∀ a, (![1, 0, 0] : Fin 3 → Nat) a + S1x2048x256.size a ≤ S4x2048x256.size a
  inb_S4x256_S1x256_1_0 : ∀ a, (![1, 0] : Fin 2 → Nat) a + S1x256.size a ≤ S4x256.size a
  inb_S4x2048x256_S1x2048x256_2_0_0 : ∀ a, (![2, 0, 0] : Fin 3 → Nat) a + S1x2048x256.size a ≤ S4x2048x256.size a
  inb_S4x256_S1x256_2_0 : ∀ a, (![2, 0] : Fin 2 → Nat) a + S1x256.size a ≤ S4x256.size a
  inb_S4x2048x256_S1x2048x256_3_0_0 : ∀ a, (![3, 0, 0] : Fin 3 → Nat) a + S1x2048x256.size a ≤ S4x2048x256.size a
  inb_S4x256_S1x256_3_0 : ∀ a, (![3, 0] : Fin 2 → Nat) a + S1x256.size a ≤ S4x256.size a
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  packedbf16_S256x256_S256x256_0_0 : (Rect.unit (s := S256x256) ![0, 0] S256x256.size inb_S256x256_S256x256_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S256x2048_S2048x256_S256x256_1_0_0_1_n_n_wf : DotDims.WF S256x2048 S2048x256 S256x256 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .bf16 = 32 ∨ (Rect.block (s := S4096x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .bf16 = 32 ∨ (Rect.block (s := S4096x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x2048.size a
  hwx0_3 : ∀ i : grid0.Coords, EltTy.bits .f32 = 32 ∨ (Rect.block (s := S4096x2048) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x2048x256.size a ≤ S4x2048x2048.size a
  hwx0_4 : ∀ i : grid0.Coords, EltTy.bits .bf16 = 32 ∨ (Rect.block (s := S4x2048x2048) S4x2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x2048x256.size a ≤ S4x2048x2048.size a
  hwx0_5 : ∀ i : grid0.Coords, EltTy.bits .bf16 = 32 ∨ (Rect.block (s := S4x2048x2048) S4x2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .bf16 = 32 ∨ (Rect.block (s := S2048x2048) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x256.size a ≤ S4x2048.size a
  hwx0_8 : ∀ i : grid0.Coords, EltTy.bits .f32 = 32 ∨ (Rect.block (s := S4x2048) S4x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S4096x1.size a
  hwx0_9 : ∀ i : grid0.Coords, EltTy.bits .f32 = 32 ∨ (Rect.block (s := S4096x1) S256x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S4096x1.size a
  hwx0_10 : ∀ i : grid0.Coords, EltTy.bits .f32 = 32 ∨ (Rect.block (s := S4096x1) S256x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S4096x2048.size a
  hwx0_11 : ∀ i : grid0.Coords, EltTy.bits .f32 = 32 ∨ (Rect.block (s := S4096x2048) S256x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S4096x2048.size a
  hwx0_12 : ∀ i : grid0.Coords, EltTy.bits .bf16 = 32 ∨ (Rect.block (s := S4096x2048) S256x256.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S4096x2048.size a
  hwx0_13 : ∀ i : grid0.Coords, EltTy.bits .f32 = 32 ∨ (Rect.block (s := S4096x2048) S256x256.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .f32 = 32 ∨ (Rect.block (s := S4096x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S4096x2048.size a
  hwx1_1 : ∀ i : grid1.Coords, EltTy.bits .bf16 = 32 ∨ (Rect.block (s := S4096x2048) S256x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S4096x2048.size a
  hwx1_2 : ∀ i : grid1.Coords, EltTy.bits .f32 = 32 ∨ (Rect.block (s := S4096x2048) S256x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .bf16 = 32 ∨ (Rect.block (s := S2048x2048) S2048x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S4096x2048.size a
  hwx1_4 : ∀ i : grid1.Coords, EltTy.bits .f32 = 32 ∨ (Rect.block (s := S4096x2048) S256x2048.size (cc1_transform_4 i) (hinb1_4 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v15) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14) S4x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v24) S256x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v31) S256x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v32_0) S256x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v32_1) S256x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v32_2) S256x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v32_2) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32_1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32_0) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S4096 : Shape := ⟨1, ![4096]⟩
abbrev S8192x2048 : Shape := ⟨2, ![8192, 2048]⟩
abbrev S2048x2048 : Shape := ⟨2, ![2048, 2048]⟩
abbrev S8192 : Shape := ⟨1, ![8192]⟩
abbrev S1 : Shape := ⟨1, ![1]⟩
abbrev S2048x8192 : Shape := ⟨2, ![2048, 8192]⟩
abbrev S4096x8192 : Shape := ⟨2, ![4096, 8192]⟩
abbrev S1x8192 : Shape := ⟨2, ![1, 8192]⟩
abbrev S_ : Shape := ⟨0, ![]⟩
abbrev S4096x1 : Shape := ⟨2, ![4096, 1]⟩

abbrev nBuf : Space → Nat
  | .hbm => 86
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .f32⟩
  | .hbm, ⟨2, _⟩ => ⟨S4096, .f32⟩
  | .hbm, ⟨3, _⟩ => ⟨S4096x2048, .f32⟩
  | .hbm, ⟨4, _⟩ => ⟨S4096x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S8192, .f32⟩
  | .hbm, ⟨11, _⟩ => ⟨S8192, .f32⟩
  | .hbm, ⟨12, _⟩ => ⟨S1, .f32⟩
  | .hbm, ⟨13, _⟩ => ⟨S1, .f32⟩
  | .hbm, ⟨14, _⟩ => ⟨S2048x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S2048x8192, .f32⟩
  | .hbm, ⟨20, _⟩ => ⟨S4096x8192, .f32⟩
  | .hbm, ⟨21, _⟩ => ⟨S4096x8192, .f32⟩
  | .hbm, ⟨22, _⟩ => ⟨S1x8192, .f32⟩
  | .hbm, ⟨23, _⟩ => ⟨S4096x8192, .f32⟩
  | .hbm, ⟨24, _⟩ => ⟨S4096x8192, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S2048x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S2048x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S1, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S4096x1, .f32⟩
  | .hbm, ⟨59, _⟩ => ⟨S1, .f32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S4096x1, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S2048x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S_, .f32⟩
  | .hbm, ⟨79, _⟩ => ⟨S4096x2048, .f32⟩
  | .hbm, ⟨80, _⟩ => ⟨S4096x2048, .f32⟩
  | .hbm, ⟨81, _⟩ => ⟨S_, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_3 : Ref sig .tc := ⟨.hbm, 78, rfl⟩
abbrev main_v60 : Ref sig .tc := ⟨.hbm, 79, rfl⟩
abbrev main_v61 : Ref sig .tc := ⟨.hbm, 80, rfl⟩
abbrev main_cst_4 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  transposes_S2048x2048_S2048x2048_1_0 : S2048x2048.Transposes [1, 0] S2048x2048
  bcast_S_S4096x2048 : S_.BroadcastsInDim S4096x2048 (![] : Fin 0 → Fin S4096x2048.rank)
  bcast_S1_S4096_0 : S1.BroadcastsInDim S4096 (![0] : Fin 1 → Fin S4096.rank)
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  dot_S4096x2048_S2048x8192_S4096x8192_1_0_0_1_n_n_wf : DotDims.WF S4096x2048 S2048x8192 S4096x8192 [1] [0] [0] [1] [] []
  dot_S4096x2048_S2048x2048_S4096x2048_1_0_0_1_n_n_wf : DotDims.WF S4096x2048 S2048x2048 S4096x2048 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Cells.lean ====
/-
  One entry of the peephole LSTM cell with time decay, as a function of the rows it depends on.

  Fix a batch row b and an output column o. With x, h, c the rows b of the input, the hidden state and
  the cell state, and for each gate g (input 0, forget 1, candidate 2, output 3) the column o of its
  input weights, hidden weights and summed bias,
      pre g = (x · wih g + h · whh g) + bias g,
      i = σ(pre 0 + c · wpi),   f = σ(pre 1 + c · wpf),   g~ = tanh (pre 2),
      cy = (fdecay · f) · c[o] + (idecay · i) · g~,
      hy = σ(pre 3 + cy_row · wpo) · tanh cy,
  where σ x = 1 / (1 + e^(-x)), every sum is over the 2048 entries of a row, and everything is read on
  the extended reals.  Nothing below needs a finite operand: the only laws used are commutativity and
  associativity of +, which hold on all of the extended reals.
-/
import Idealize.ShloMosaic.PureOps.Ideal
import Idealize.ShloMosaic.PureOps.Ideal.Laws

noncomputable section

namespace Cert.LstmCell

open Idealize.ShloMosaic

/-- The inner product of two rows of 2048 extended reals. -/
def dot (u v : Fin 2048 → EReal) : EReal := ∑ k : Fin 2048, u k * v k

/-- A gate's pre-activation, the two products added first and the (already summed) bias last. -/
def gate (xr hr wi wh : Fin 2048 → EReal) (b : EReal) : EReal := (dot xr wi + dot hr wh) + b

/-- The same pre-activation with the two biases added one after the other around the second product. -/
def gateSplit (xr hr wi wh : Fin 2048 → EReal) (bi bh : EReal) : EReal := ((dot xr wi + bi) + dot hr wh) + bh

/-- Adding the biases one at a time or as their sum gives one value: + is commutative and associative
    on the extended reals, infinities included. -/
theorem gateSplit_eq (xr hr wi wh : Fin 2048 → EReal) (bi bh : EReal) :
    gateSplit xr hr wi wh bi bh = gate xr hr wi wh (bi + bh) := by
  unfold gateSplit gate
  rw [add_assoc, add_add_add_comm]

/-- The new cell state's entry (b, o). -/
def cyCell (xr hr cr : Fin 2048 → EReal) (cxs : EReal) (wih whh : Fin 4 → Fin 2048 → EReal)
    (wpi wpf : Fin 2048 → EReal) (bs : Fin 4 → EReal) (fdecay idecay : EReal) : EReal :=
  (fdecay * Ideal.logistic (gate xr hr (wih 1) (whh 1) (bs 1) + dot cr wpf)) * cxs
    + (idecay * Ideal.logistic (gate xr hr (wih 0) (whh 0) (bs 0) + dot cr wpi))
        * Ideal.tanh (gate xr hr (wih 2) (whh 2) (bs 2))

/-- The output gate's pre-activation at (b, o), before its peephole term. -/
def opreCell (xr hr : Fin 2048 → EReal) (wih whh : Fin 4 → Fin 2048 → EReal) (bs : Fin 4 → EReal) : EReal :=
  gate xr hr (wih 3) (whh 3) (bs 3)

/-- The new hidden state's entry (b, o), from the output gate's pre-activation, row b of the new cell
    state, column o of the output peephole weights and the new cell state's entry. -/
def hyCell (opre : EReal) (cyr wpo : Fin 2048 → EReal) (cy : EReal) : EReal :=
  Ideal.logistic (opre + dot cyr wpo) * Ideal.tanh cy

/-- The word 0x3F800000 is the number one. -/
theorem ofBits_one_f32 : Ideal.ofBits .f32 0x3F800000#32 = 1 := by
  simp [Ideal.ofBits, Ideal.ieee, -EReal.coe_mul]; norm_num

/-- The logistic function is the quotient it abbreviates: one over one plus the exponential of the
    negated argument, with the quotient and the exponential read on the extended reals. -/
theorem logistic_eq_div (x : EReal) : Ideal.logistic x = Ideal.div 1 (1 + Ideal.exp (-x)) := rfl

end Cert.LstmCell

end
-- ==== Proof.GatesPoint.lean ====
/-
  The gates kernel at one grid point, entry by entry.

  At a point the kernel holds a 256-row band of the three activations (bands of x, h and c, 2048 wide), the
  256 x 256 tile of c it updates, the 256-column slabs of the four gates' input and hidden weights
  ([4, 2048, 256]) and of the two peephole weights ([2048, 256]), the slab of the summed biases ([4, 256]) and
  the band's two decay columns ([256, 1]).  Entry (p, q) of each tile it writes is the cell function of row p
  of the bands, column q of the slabs and row p of the decay columns: each matrix product into a zero
  accumulator is the row-by-column sum, the casts between shapes move no entry, and the broadcasts repeat a
  row or a column.
-/
import proofs.«417413_j34875134443722_3_alg».proof.Proof.Gen.KernelIdeal.Frame
import proofs.«417413_j34875134443722_3_alg».proof.Proof.Cells
import Idealize.ShloMosaic.Lib.ValueIdx
import Idealize.ShloMosaic.Lib.Pipeline.Value
import Idealize.ShloMosaic.PureOps.Ideal.Laws

set_option maxRecDepth 16384

noncomputable section

namespace Cert.KernelIdeal.GatesPoint

open Cert.KernelIdeal Cert.KernelIdeal.Gen Cert.LstmCell
open Idealize.ShloMosaic Idealize.ShloMosaic.ValueIdx

/-! ## The matrix product of a band and a slab, at an entry -/

theorem lhs_band_0 (i : S256x256.Idx) (q : dot_S256x2048_S2048x256_S256x256_1_0_0_1_n_n.contr.Idx) :
    (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
theorem lhs_band_1 (i : S256x256.Idx) (q : dot_S256x2048_S2048x256_S256x256_1_0_0_1_n_n.contr.Idx) :
    (dot_S256x2048_S2048x256_S256x256_1_0_0_1_n_n.lhsIdx i q 1).val = (q ⟨0, by decide⟩).val :=
  dot_S256x2048_S2048x256_S256x256_1_0_0_1_n_n.lhsIdx_val_of_single rfl i q
theorem rhs_slab_0 (i : S256x256.Idx) (q : dot_S256x2048_S2048x256_S256x256_1_0_0_1_n_n.contr.Idx) :
    (dot_S256x2048_S2048x256_S256x256_1_0_0_1_n_n.rhsIdx i q 0).val = (q ⟨0, by decide⟩).val :=
  dot_S256x2048_S2048x256_S256x256_1_0_0_1_n_n.rhsIdx_val_of_single rfl i q
theorem rhs_slab_1 (i : S256x256.Idx) (q : dot_S256x2048_S2048x256_S256x256_1_0_0_1_n_n.contr.Idx) :
    (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

/-- A band times a slab into a zero accumulator: entry (p, q) is row p of the band against column q of the slab. -/
theorem band_slab_at (a : FVec Ideal S256x2048 .bf16) (w : FVec Ideal S2048x256 .bf16) (p q : Fin 256) :
    matmul dot_S256x2048_S2048x256_S256x256_1_0_0_1_n_n none a w (constant (F := Ideal) S256x256 .f32 0x00000000#32) (ix2 p q)
      = dot (fun k => a (ix2 p k)) (fun k => w (ix2 k q)) := by
  unfold dot
  show FloatOps.matmul dot_S256x2048_S2048x256_S256x256_1_0_0_1_n_n none a w (constant (F := Ideal) S256x256 .f32 0x00000000#32) (ix2 p q) = _
  rw [Ideal.matmul_constant_zero_apply, ← Equiv.sum_comp (contrEquiv1 dot_S256x2048_S2048x256_S256x256_1_0_0_1_n_n 2048 rfl rfl).symm]
  refine Finset.sum_congr rfl fun k _ => ?_
  have hk := contrEquiv1_symm_val dot_S256x2048_S2048x256_S256x256_1_0_0_1_n_n 2048 rfl rfl k
  have el : dot_S256x2048_S2048x256_S256x256_1_0_0_1_n_n.lhsIdx (ix2 p q) ((contrEquiv1 dot_S256x2048_S2048x256_S256x256_1_0_0_1_n_n 2048 rfl rfl).symm k) = ix2 p k := funext fun a => Fin.ext (by
    match a with
    | ⟨0, _⟩ => exact lhs_band_0 _ _
    | ⟨1, _⟩ => exact (lhs_band_1 _ _).trans hk)
  have er : dot_S256x2048_S2048x256_S256x256_1_0_0_1_n_n.rhsIdx (ix2 p q) ((contrEquiv1 dot_S256x2048_S2048x256_S256x256_1_0_0_1_n_n 2048 rfl rfl).symm k) = ix2 k q := funext fun a => Fin.ext (by
    match a with
    | ⟨0, _⟩ => exact (rhs_slab_0 _ _).trans hk
    | ⟨1, _⟩ => exact rhs_slab_1 _ _)
  rw [el, er]

/-! ## The casts and broadcasts, at an entry -/

theorem zero2 : (![0, 0] : Fin 2 → Nat) = fun _ => 0 := funext fun a => by fin_cases a <;> rfl

/-- Dropping the leading unit axis of a [1, 2048, 256] slab moves no entry. -/
theorem slab_at {α : Type} (v : S1x2048x256.Idx → α) (k : Fin 2048) (q : Fin 256) :
    shapeCast S2048x256 v shapeCasts_S1x2048x256_S2048x256 (ix2 k q) = v (ix3 0 k q) := by
  refine (shapeCast_dropUnit_apply ![2048, 256] v shapeCasts_S1x2048x256_S2048x256 (ix2 k q)).trans ?_
  refine congrArg v (funext fun a => ?_)
  match a with
  | ⟨0, _⟩ => rfl
  | ⟨1, _⟩ => rfl
  | ⟨2, _⟩ => rfl

/-- Gate n's slab, loaded out of the [4, 2048, 256] block at offset (n, 0, 0). -/
theorem gate_slab_at {Val : EltTy → Type} {e' : EltTy} (x : S4x2048x256.Idx → Val e') (n : Nat) (hn : n < 4) (inb : ∀ a, (![n, 0, 0] : Fin 3 → Nat) a + S1x2048x256.size a ≤ S4x2048x256.size a)
    (k : Fin 2048) (q : Fin 256) :
    View.ld x (Rect.unit (s := S4x2048x256) ![n, 0, 0] S1x2048x256.size inb) (ix3 0 k q) = x (ix3 ⟨n, hn⟩ k q) := by
  show x _ = x _
  refine congrArg x (funext fun a => Fin.ext ?_)
  match a with
  | ⟨0, _⟩ => show n + 1 * 0 = n; omega
  | ⟨1, _⟩ => show 0 + 1 * k.val = k.val; omega
  | ⟨2, _⟩ => show 0 + 1 * q.val = q.val; omega

/-- Gate n's bias row, loaded out of the [4, 256] block at offset (n, 0). -/
theorem gate_bias_at {Val : EltTy → Type} {e' : EltTy} (x : S4x256.Idx → Val e') (n : Nat) (hn : n < 4) (inb : ∀ a, (![n, 0] : Fin 2 → Nat) a + S1x256.size a ≤ S4x256.size a)
    (q : Fin 256) :
    View.ld x (Rect.unit (s := S4x256) ![n, 0] S1x256.size inb) (ix2 0 q) = x (ix2 ⟨n, hn⟩ q) := by
  show x _ = x _
  refine congrArg x (funext fun a => Fin.ext ?_)
  match a with
  | ⟨0, _⟩ => show n + 1 * 0 = n; omega
  | ⟨1, _⟩ => show 0 + 1 * q.val = q.val; omega

/-- A bias row flattened, restored and repeated down the 256 rows: entry (p, q) is the row's entry q. -/
theorem bias_rows_at {α : Type} (v : S1x256.Idx → α) (p q : Fin 256) :
    broadcastTo S256x256 (shapeCast S1x256 (shapeCast S256 v shapeCasts_S1x256_S256) shapeCasts_S256_S1x256) broadcasts_S1x256_S256x256 (ix2 p q)
      = v (ix2 0 q) := by
  rw [shapeCast_shapeCast]
  refine broadcastTo_apply v broadcasts_S1x256_S256x256 (ix2 p q) (ix2 0 q) fun a => ?_
  match a with
  | ⟨0, _⟩ => rfl
  | ⟨1, _⟩ => rfl

/-- A decay column repeated across the 256 columns: entry (p, q) is the column's entry p. -/
theorem decay_cols_at {α : Type} (v : S256x1.Idx → α) (p q : Fin 256) :
    broadcastTo S256x256 (shapeCast S256x1 v shapeCasts_S256x1_S256x1) broadcasts_S256x1_S256x256 (ix2 p q) = v (ix2 p 0) := by
  rw [shapeCast_self]
  refine broadcastTo_apply v broadcasts_S256x1_S256x256 (ix2 p q) (ix2 p 0) fun a => ?_
  match a with
  | ⟨0, _⟩ => rfl
  | ⟨1, _⟩ => rfl

/-! ## The body's values at an entry -/

/-- The input gate's pre-activation (its slabs and bias row already loaded). -/
theorem pay6_at (v0 v2 : Vec Ideal S256x2048 .bf16) (v7 v10 : Vec Ideal S1x2048x256 .bf16) (v14 : Vec Ideal S1x256 .f32) (p q : Fin 256) :
    k0_pay6 v0 v2 v7 v10 v14 (ix2 p q)
      = gate (fun k => v0 (ix2 p k)) (fun k => v2 (ix2 p k)) (fun k => v7 (ix3 0 k q)) (fun k => v10 (ix3 0 k q)) (v14 (ix2 0 q)) := by
  unfold k0_pay6 k0_pay3 k0_pay4 gate
  try dsimp only
  rw [addf_apply, addf_apply, band_slab_at, band_slab_at, bias_rows_at]
  simp only [shapeCast_self, slab_at]

/-- The forget gate's two products, before its bias. -/
theorem pay7_at (v0 v2 : Vec Ideal S256x2048 .bf16) (v19 v22 : Vec Ideal S1x2048x256 .bf16) (p q : Fin 256) :
    k0_pay7 v0 v2 v19 v22 (ix2 p q)
      = dot (fun k => v0 (ix2 p k)) (fun k => v19 (ix3 0 k q)) + dot (fun k => v2 (ix2 p k)) (fun k => v22 (ix3 0 k q)) := by
  unfold k0_pay7 k0_pay3 k0_pay4
  try dsimp only
  rw [addf_apply, band_slab_at, band_slab_at]
  simp only [shapeCast_self, slab_at]

/-- The forget gate's bias, repeated down the rows. -/
theorem pay8_at (v26 : Vec Ideal S1x256 .f32) (p q : Fin 256) : k0_pay8 v26 (ix2 p q) = v26 (ix2 0 q) := by
  unfold k0_pay8
  exact bias_rows_at v26 p q

/-- The candidate gate's pre-activation. -/
theorem pay9_at (v1 v3 : FVec Ideal S256x2048 .bf16) (v31 v34 : Vec Ideal S1x2048x256 .bf16) (v38 : Vec Ideal S1x256 .f32) (p q : Fin 256) :
    k0_pay9 v1 v3 v31 v34 v38 (ix2 p q)
      = gate (fun k => v1 (ix2 p k)) (fun k => v3 (ix2 p k)) (fun k => v31 (ix3 0 k q)) (fun k => v34 (ix3 0 k q)) (v38 (ix2 0 q)) := by
  unfold k0_pay9 gate
  rw [addf_apply, addf_apply, band_slab_at, band_slab_at, bias_rows_at]
  simp only [slab_at]

/-- The output gate's pre-activation. -/
theorem pay10_at (v1 v3 : FVec Ideal S256x2048 .bf16) (v43 v46 : Vec Ideal S1x2048x256 .bf16) (v50 : Vec Ideal S1x256 .f32) (p q : Fin 256) :
    k0_pay10 v1 v3 v43 v46 v50 (ix2 p q)
      = gate (fun k => v1 (ix2 p k)) (fun k => v3 (ix2 p k)) (fun k => v43 (ix3 0 k q)) (fun k => v46 (ix3 0 k q)) (v50 (ix2 0 q)) := by
  unfold k0_pay10 gate
  rw [addf_apply, addf_apply, band_slab_at, band_slab_at, bias_rows_at]
  simp only [slab_at]

/-- The input gate: the logistic function of its pre-activation plus its peephole product. -/
theorem pay11_at (v5 : FVec Ideal S256x2048 .bf16) (v18 : FVec Ideal S256x256 .f32) (v55 : Vec Ideal S2048x256 .bf16) (p q : Fin 256) :
    k0_pay11 v5 v18 v55 (ix2 p q)
      = Ideal.logistic (v18 (ix2 p q) + dot (fun k => v5 (ix2 p k)) (fun k => v55 (ix2 k q))) := by
  unfold k0_pay11
  show Ideal.logistic (addf v18 _ (ix2 p q)) = _
  rw [addf_apply, band_slab_at]
  simp only [shapeCast_self]

/-- The forget gate's pre-activation with its peephole product. -/
theorem pay12_at (v5 : FVec Ideal S256x2048 .bf16) (v25 v29 : FVec Ideal S256x256 .f32) (v58 : Vec Ideal S2048x256 .bf16) (p q : Fin 256) :
    k0_pay12 v5 v25 v29 v58 (ix2 p q)
      = (v25 (ix2 p q) + v29 (ix2 p q)) + dot (fun k => v5 (ix2 p k)) (fun k => v58 (ix2 k q)) := by
  unfold k0_pay12
  rw [addf_apply, addf_apply, band_slab_at]
  simp only [shapeCast_self]

/-- The new cell state from the gates, the tile of the old cell state and the two decay columns. -/
theorem pay1_at (v6 : Vec Ideal S256x256 .f32) (v42 v62 v63 : FVec Ideal S256x256 .f32) (v66 v68 : Vec Ideal S256x1 .f32) (p q : Fin 256) :
    k0_pay1 v6 v42 v62 v63 v66 v68 (ix2 p q)
      = (v66 (ix2 p 0) * Ideal.logistic (v63 (ix2 p q))) * v6 (ix2 p q)
        + (v68 (ix2 p 0) * v62 (ix2 p q)) * Ideal.tanh (v42 (ix2 p q)) := by
  unfold k0_pay1
  show (broadcastTo S256x256 (shapeCast S256x1 v66 shapeCasts_S256x1_S256x1) broadcasts_S256x1_S256x256 (ix2 p q) * Ideal.logistic (v63 (ix2 p q))) * v6 (ix2 p q)
      + (broadcastTo S256x256 (shapeCast S256x1 v68 shapeCasts_S256x1_S256x1) broadcasts_S256x1_S256x256 (ix2 p q) * v62 (ix2 p q)) * Ideal.tanh (v42 (ix2 p q)) = _
  rw [decay_cols_at, decay_cols_at]

/-! ## The three tiles the body writes, at an entry -/

/-- The new cell state's tile. -/
theorem cy_tile_at (x0 x1 x2 : Vec Ideal S256x2048 .bf16) (x3 : Vec Ideal S256x256 .f32) (x4 x5 : Vec Ideal S4x2048x256 .bf16)
    (x6 x7 : Vec Ideal S2048x256 .bf16) (x8 : Vec Ideal S4x256 .f32) (x9 x10 : Vec Ideal S256x1 .f32) (p q : Fin 256) :
    out0_11 x0 x1 x2 x3 x4 x5 x6 x7 x8 x9 x10 (ix2 p q)
      = cyCell (fun k => x0 (ix2 p k)) (fun k => x1 (ix2 p k)) (fun k => x2 (ix2 p k)) (x3 (ix2 p q))
          (fun g k => x4 (ix3 g k q)) (fun g k => x5 (ix3 g k q)) (fun k => x6 (ix2 k q)) (fun k => x7 (ix2 k q))
          (fun g => x8 (ix2 g q)) (x9 (ix2 p 0)) (x10 (ix2 p 0)) := by
  unfold out0_11
  rw [View.canon_unit_zero zero2]
  simp only [View.ld_unit_zero (S := S256x2048) zero2, View.ld_unit_zero (S := S256x256) zero2,
    View.ld_unit_zero (S := S2048x256) zero2, View.ld_unit_zero (S := S256x1) zero2]
  rw [pay1_at, pay12_at, pay11_at, pay9_at, pay7_at, pay8_at, pay6_at]
  unfold cyCell gate k0_pay3 k0_pay4 k0_pay5
  simp only [shapeCast_self]
  rw [gate_bias_at x8 0 (by decide), gate_bias_at x8 1 (by decide), gate_bias_at x8 2 (by decide)]
  simp only [gate_slab_at x4 0 (by decide), gate_slab_at x4 1 (by decide), gate_slab_at x4 2 (by decide), gate_slab_at x5 0 (by decide), gate_slab_at x5 1 (by decide), gate_slab_at x5 2 (by decide)]
  rfl

/-- The same tile rounded to bfloat16 for the second kernel: on the extended reals, the same numbers. -/
theorem cybf_tile_at (x0 x1 x2 : Vec Ideal S256x2048 .bf16) (x3 : Vec Ideal S256x256 .f32) (x4 x5 : Vec Ideal S4x2048x256 .bf16)
    (x6 x7 : Vec Ideal S2048x256 .bf16) (x8 : Vec Ideal S4x256 .f32) (x9 x10 : Vec Ideal S256x1 .f32) (p q : Fin 256) :
    out0_12 x0 x1 x2 x3 x4 x5 x6 x7 x8 x9 x10 (ix2 p q) = out0_11 x0 x1 x2 x3 x4 x5 x6 x7 x8 x9 x10 (ix2 p q) := by
  unfold out0_12 out0_11
  rw [View.canon_unit_zero zero2, View.canon_unit_zero zero2]
  rfl

/-- The output gate's pre-activation tile. -/
theorem opre_tile_at (x0 x1 x2 : Vec Ideal S256x2048 .bf16) (x3 : Vec Ideal S256x256 .f32) (x4 x5 : Vec Ideal S4x2048x256 .bf16)
    (x6 x7 : Vec Ideal S2048x256 .bf16) (x8 : Vec Ideal S4x256 .f32) (x9 x10 : Vec Ideal S256x1 .f32) (p q : Fin 256) :
    out0_13 x0 x1 x2 x3 x4 x5 x6 x7 x8 x9 x10 (ix2 p q)
      = opreCell (fun k => x0 (ix2 p k)) (fun k => x1 (ix2 p k)) (fun g k => x4 (ix3 g k q)) (fun g k => x5 (ix3 g k q)) (fun g => x8 (ix2 g q)) := by
  unfold out0_13
  rw [View.canon_unit_zero zero2]
  simp only [View.ld_unit_zero (S := S256x2048) zero2]
  rw [pay10_at]
  unfold opreCell k0_pay3 k0_pay4
  simp only [shapeCast_self]
  rw [gate_bias_at x8 3 (by decide)]
  simp only [gate_slab_at x4 3 (by decide), gate_slab_at x5 3 (by decide)]
  rfl

end Cert.KernelIdeal.GatesPoint

end
-- ==== Proof.Spec.lean ====
/-
  The cell as a function of its fourteen argument arrays.

  x, h, c are [4096, 2048]; the gates' input and hidden weights [8192, 2048] hold gate g's rows at
  g * 2048 + o; the three peephole weights are [2048, 2048], used transposed (entry (o, k) multiplies entry k of
  a row); the two bias vectors [8192] are indexed like the weights' rows; the two time gaps are [4096]; the
  decay's scale a and rate r are single numbers.  Row b's decay factor for a gap d is a * exp ((-r) * d[b]).
-/
import proofs.«417413_j34875134443722_3_alg».proof.Proof.Cells
import Idealize.ShloMosaic.Lib.ValueIdx

noncomputable section

namespace Cert.LstmCell

open Idealize.ShloMosaic Idealize.ShloMosaic.ValueIdx

abbrev Mat (n0 n1 : Nat) : Type := (⟨2, ![n0, n1]⟩ : Shape).Idx → EReal
abbrev Row (n : Nat) : Type := (⟨1, ![n]⟩ : Shape).Idx → EReal

/-- Gate g's row for output column o in a stacked [8192, ·] array. -/
def stacked (g : Fin 4) (o : Fin 2048) : Fin 8192 := ⟨g.val * 2048 + o.val, by have := g.isLt; have := o.isLt; omega⟩

/-- Row b's decay factor. -/
def decay (a r : Row 1) (d : Row 4096) (b : Fin 4096) : EReal := a (ix1 0) * Ideal.exp ((-(r (ix1 0))) * d (ix1 b))

/-- The new cell state. -/
def cySpec (x : Mat 4096 2048) (td0 td1 : Row 4096) (h c : Mat 4096 2048) (wih whh : Mat 8192 2048) (wpi wpf : Mat 2048 2048)
    (bih bhh : Row 8192) (a r : Row 1) (b : Fin 4096) (o : Fin 2048) : EReal :=
  cyCell (fun k => x (ix2 b k)) (fun k => h (ix2 b k)) (fun k => c (ix2 b k)) (c (ix2 b o))
    (fun g k => wih (ix2 (stacked g o) k)) (fun g k => whh (ix2 (stacked g o) k))
    (fun k => wpi (ix2 o k)) (fun k => wpf (ix2 o k))
    (fun g => bih (ix1 (stacked g o)) + bhh (ix1 (stacked g o)))
    (decay a r td0 b) (decay a r td1 b)

/-- The output gate's pre-activation, before its peephole term. -/
def opreSpec (x h : Mat 4096 2048) (wih whh : Mat 8192 2048) (bih bhh : Row 8192) (b : Fin 4096) (o : Fin 2048) : EReal :=
  opreCell (fun k => x (ix2 b k)) (fun k => h (ix2 b k))
    (fun g k => wih (ix2 (stacked g o) k)) (fun g k => whh (ix2 (stacked g o) k))
    (fun g => bih (ix1 (stacked g o)) + bhh (ix1 (stacked g o)))

/-- The new hidden state. -/
def hySpec (x : Mat 4096 2048) (td0 td1 : Row 4096) (h c : Mat 4096 2048) (wih whh : Mat 8192 2048) (wpi wpf wpo : Mat 2048 2048)
    (bih bhh : Row 8192) (a r : Row 1) (b : Fin 4096) (o : Fin 2048) : EReal :=
  hyCell (opreSpec x h wih whh bih bhh b o)
    (fun k => cySpec x td0 td1 h c wih whh wpi wpf bih bhh a r b k) (fun k => wpo (ix2 o k))
    (cySpec x td0 td1 h c wih whh wpi wpf bih bhh a r b o)

/-- A function of (row, column) as a [4096, 2048] array. -/
def onGrid (f : Fin 4096 → Fin 2048 → EReal) : Mat 4096 2048 := fun i => f ⟨(i 0).val, idx2_lt0 i⟩ ⟨(i 1).val, idx2_lt1 i⟩

theorem onGrid_ix2 (f : Fin 4096 → Fin 2048 → EReal) (b : Fin 4096) (o : Fin 2048) : onGrid f (ix2 b o) = f b o := rfl

end Cert.LstmCell

end
-- ==== Proof.GatesArray.lean ====
/-
  The gates kernel over its whole grid.

  The grid is 8 column tiles by 16 row bands.  At the point (ot, bt) the three activation bands and the two decay
  columns are rows bt*256 .. bt*256+255 of their arrays, the weight slabs and the bias slab are columns
  ot*256 .. ot*256+255 of theirs, and the tile of the old cell state and the three tiles written are the
  256 x 256 tile (bt, ot).  So entry (p, q) of a written tile is the cell function of row bt*256+p of the
  activations and column ot*256+q of the weights: the tile is a block of ONE function of the whole arrays.
  The 128 tiles cover the [4096, 2048] arrays, so after the kernel each output array IS that function.
-/
import proofs.«417413_j34875134443722_3_alg».proof.Proof.Gen.KernelIdeal.Frame
import proofs.«417413_j34875134443722_3_alg».proof.Proof.GatesPoint
import proofs.«417413_j34875134443722_3_alg».proof.Proof.Spec
import Idealize.ShloMosaic.Lib.ValueIdx
import Idealize.ShloMosaic.Lib.Pipeline.Value

set_option maxRecDepth 16384

noncomputable section

namespace Cert.KernelIdeal.GatesArray

open Cert.KernelIdeal Cert.KernelIdeal.Gen Cert.KernelIdeal.GatesPoint Cert.LstmCell
open Idealize.ShloMosaic Idealize.ShloMosaic.TcCoe Idealize.ShloMosaic.ValueIdx Idealize.SL.Sem
open Idealize.ShloMosaic.Pipeline (Dat Cfg Window)

/-! ## The whole-array functions -/

/-- The new cell state's entry (b, o) from the kernel's eleven operand arrays. -/
def cyAt (a0 a1 a2 a3 : S4096x2048.Idx → EReal) (a4 a5 : S4x2048x2048.Idx → EReal) (a6 a7 : S2048x2048.Idx → EReal)
    (a8 : S4x2048.Idx → EReal) (a9 a10 : S4096x1.Idx → EReal) (b : Fin 4096) (o : Fin 2048) : EReal :=
  cyCell (fun k => a0 (ix2 b k)) (fun k => a1 (ix2 b k)) (fun k => a2 (ix2 b k)) (a3 (ix2 b o))
    (fun g k => a4 (ix3 g k o)) (fun g k => a5 (ix3 g k o)) (fun k => a6 (ix2 k o)) (fun k => a7 (ix2 k o))
    (fun g => a8 (ix2 g o)) (a9 (ix2 b 0)) (a10 (ix2 b 0))

/-- The output gate's pre-activation at (b, o) from the operand arrays it depends on. -/
def opreAt (a0 a1 : S4096x2048.Idx → EReal) (a4 a5 : S4x2048x2048.Idx → EReal) (a8 : S4x2048.Idx → EReal)
    (b : Fin 4096) (o : Fin 2048) : EReal :=
  opreCell (fun k => a0 (ix2 b k)) (fun k => a1 (ix2 b k)) (fun g k => a4 (ix3 g k o)) (fun g k => a5 (ix3 g k o)) (fun g => a8 (ix2 g o))

/-! ## Where each block sits, decided once over the grid -/

theorem block_places : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = win0_11.index t (0 : Fin 2) ∧ win0_2.index t (1 : Fin 2) = 0
    ∧ win0_3.index t (0 : Fin 2) = win0_11.index t (0 : Fin 2) ∧ win0_3.index t (1 : Fin 2) = win0_11.index t (1 : Fin 2)
    ∧ win0_4.index t (0 : Fin 3) = 0 ∧ win0_4.index t (1 : Fin 3) = 0 ∧ win0_4.index t (2 : Fin 3) = win0_11.index t (1 : Fin 2)
    ∧ win0_5.index t (0 : Fin 3) = 0 ∧ win0_5.index t (1 : Fin 3) = 0 ∧ win0_5.index t (2 : Fin 3) = win0_11.index t (1 : Fin 2)
    ∧ win0_6.index t (0 : Fin 2) = 0 ∧ win0_6.index t (1 : Fin 2) = win0_11.index t (1 : Fin 2)
    ∧ win0_7.index t (0 : Fin 2) = 0 ∧ win0_7.index t (1 : Fin 2) = win0_11.index t (1 : Fin 2)
    ∧ win0_8.index t (0 : Fin 2) = 0 ∧ win0_8.index t (1 : Fin 2) = win0_11.index t (1 : Fin 2)
    ∧ win0_9.index t (0 : Fin 2) = win0_11.index t (0 : Fin 2) ∧ win0_9.index t (1 : Fin 2) = 0
    ∧ win0_10.index t (0 : Fin 2) = win0_11.index t (0 : Fin 2) ∧ win0_10.index t (1 : Fin 2) = 0
    ∧ win0_12.index t (0 : Fin 2) = win0_11.index t (0 : Fin 2) ∧ win0_12.index t (1 : Fin 2) = win0_11.index t (1 : Fin 2)
    ∧ win0_13.index t (0 : Fin 2) = win0_11.index t (0 : Fin 2) ∧ win0_13.index t (1 : Fin 2) = win0_11.index t (1 : Fin 2) :=
  (by decide +kernel : ∀ t : Fin grid0.N, _)

/-- The tile numbers stay inside the 16 x 8 tiling. -/
theorem tile_bounds : ∀ t : Fin cfg0.N, win0_11.index t (0 : Fin 2) ≤ 15 ∧ win0_11.index t (1 : Fin 2) ≤ 7 :=
  (by decide +kernel : ∀ t : Fin grid0.N, _)

/-- Every tile of the 16 x 8 tiling is some point's. -/
theorem tile_onto : ∀ (q0 : Fin 16) (q1 : Fin 8), ∃ t : Fin cfg0.N, win0_11.index t = ![q0.val, q1.val] :=
  (by decide +kernel : ∀ (q0 : Fin 16) (q1 : Fin 8), ∃ t : Fin grid0.N, win0_11.index t = ![q0.val, q1.val])

/-- The band's first row and the slab's first column at a point, as numbers below the arrays' extents. -/
def rowOf (t : Fin cfg0.N) (p : Fin 256) : Fin 4096 :=
  ⟨win0_11.index t (0 : Fin 2) * 256 + p.val, by have := (tile_bounds t).1; have := p.isLt; omega⟩
def colOf (t : Fin cfg0.N) (q : Fin 256) : Fin 2048 :=
  ⟨win0_11.index t (1 : Fin 2) * 256 + q.val, by have := (tile_bounds t).2; have := q.isLt; omega⟩

/-! ## A written tile entry from the whole arrays, given where the point's blocks sit -/

theorem cy_tile_eq (x0 x1 x2 : Vec Ideal S256x2048 .bf16) (x3 : Vec Ideal S256x256 .f32) (x4 x5 : Vec Ideal S4x2048x256 .bf16)
    (x6 x7 : Vec Ideal S2048x256 .bf16) (x8 : Vec Ideal S4x256 .f32) (x9 x10 : Vec Ideal S256x1 .f32)
    (a0 a1 a2 a3 : S4096x2048.Idx → EReal) (a4 a5 : S4x2048x2048.Idx → EReal) (a6 a7 : S2048x2048.Idx → EReal)
    (a8 : S4x2048.Idx → EReal) (a9 a10 : S4096x1.Idx → EReal) (p q : Fin 256) (b : Fin 4096) (o : Fin 2048)
    (h0 : ∀ k, x0 (ix2 p k) = a0 (ix2 b k)) (h1 : ∀ k, x1 (ix2 p k) = a1 (ix2 b k)) (h2 : ∀ k, x2 (ix2 p k) = a2 (ix2 b k))
    (h3 : x3 (ix2 p q) = a3 (ix2 b o)) (h4 : ∀ g k, x4 (ix3 g k q) = a4 (ix3 g k o)) (h5 : ∀ g k, x5 (ix3 g k q) = a5 (ix3 g k o))
    (h6 : ∀ k, x6 (ix2 k q) = a6 (ix2 k o)) (h7 : ∀ k, x7 (ix2 k q) = a7 (ix2 k o)) (h8 : ∀ g, x8 (ix2 g q) = a8 (ix2 g o))
    (h9 : x9 (ix2 p 0) = a9 (ix2 b 0)) (h10 : x10 (ix2 p 0) = a10 (ix2 b 0)) :
    out0_11 x0 x1 x2 x3 x4 x5 x6 x7 x8 x9 x10 (ix2 p q) = cyAt a0 a1 a2 a3 a4 a5 a6 a7 a8 a9 a10 b o := by
  rw [cy_tile_at]
  unfold cyAt
  rw [funext h0, funext h1, funext h2, h3, funext fun g => funext (h4 g), funext fun g => funext (h5 g), funext h6, funext h7, funext h8, h9, h10]

theorem opre_tile_eq (x0 x1 x2 : Vec Ideal S256x2048 .bf16) (x3 : Vec Ideal S256x256 .f32) (x4 x5 : Vec Ideal S4x2048x256 .bf16)
    (x6 x7 : Vec Ideal S2048x256 .bf16) (x8 : Vec Ideal S4x256 .f32) (x9 x10 : Vec Ideal S256x1 .f32)
    (a0 a1 : S4096x2048.Idx → EReal) (a4 a5 : S4x2048x2048.Idx → EReal) (a8 : S4x2048.Idx → EReal)
    (p q : Fin 256) (b : Fin 4096) (o : Fin 2048)
    (h0 : ∀ k, x0 (ix2 p k) = a0 (ix2 b k)) (h1 : ∀ k, x1 (ix2 p k) = a1 (ix2 b k))
    (h4 : ∀ g k, x4 (ix3 g k q) = a4 (ix3 g k o)) (h5 : ∀ g k, x5 (ix3 g k q) = a5 (ix3 g k o)) (h8 : ∀ g, x8 (ix2 g q) = a8 (ix2 g o)) :
    out0_13 x0 x1 x2 x3 x4 x5 x6 x7 x8 x9 x10 (ix2 p q) = opreAt a0 a1 a4 a5 a8 b o := by
  rw [opre_tile_at]
  unfold opreAt
  rw [funext h0, funext h1, funext fun g => funext (h4 g), funext fun g => funext (h5 g), funext h8]

/-! ## The blocks read off the arrays as the kernel finds them -/

variable (V : (c : Dev nD) → (b : Ref sig .tc) → Buf (Elt Ideal) ((c : Thread nD τ).loc b))

/-- The band of the input. -/
theorem read_x (c : Dev nD) (t : Fin cfg0.N) (p : Fin 256) (k : Fin 2048) :
    iblk0 V c 0 t (ix2 p k) = V c main_v15 (ix2 (rowOf t p) k) := by
  obtain ⟨e0, e1, -⟩ := block_places t
  show V c main_v15 (((cfg0.win 0).blk t).view.emb (ix2 p k)) = V c main_v15 (ix2 (rowOf t p) k)
  refine congrArg _ (funext fun a => Fin.ext ?_)
  match a with
  | ⟨0, _⟩ => show win0_0.index t (0 : Fin 2) * 256 + 1 * p.val = win0_11.index t (0 : Fin 2) * 256 + p.val; omega
  | ⟨1, _⟩ => show win0_0.index t (1 : Fin 2) * 2048 + 1 * k.val = k.val; omega

/-- The band of the hidden state. -/
theorem read_h (c : Dev nD) (t : Fin cfg0.N) (p : Fin 256) (k : Fin 2048) :
    iblk0 V c 1 t (ix2 p k) = V c main_v16 (ix2 (rowOf t p) k) := by
  obtain ⟨-, -, e0, e1, -⟩ := block_places t
  show V c main_v16 (((cfg0.win 1).blk t).view.emb (ix2 p k)) = V c main_v16 (ix2 (rowOf t p) k)
  refine congrArg _ (funext fun a => Fin.ext ?_)
  match a with
  | ⟨0, _⟩ => show win0_1.index t (0 : Fin 2) * 256 + 1 * p.val = win0_11.index t (0 : Fin 2) * 256 + p.val; omega
  | ⟨1, _⟩ => show win0_1.index t (1 : Fin 2) * 2048 + 1 * k.val = k.val; omega

/-- The band of the cell state. -/
theorem read_c (c : Dev nD) (t : Fin cfg0.N) (p : Fin 256) (k : Fin 2048) :
    iblk0 V c 2 t (ix2 p k) = V c main_v17 (ix2 (rowOf t p) k) := by
  obtain ⟨-, -, -, -, e0, e1, -⟩ := block_places t
  show V c main_v17 (((cfg0.win 2).blk t).view.emb (ix2 p k)) = V c main_v17 (ix2 (rowOf t p) k)
  refine congrArg _ (funext fun a => Fin.ext ?_)
  match a with
  | ⟨0, _⟩ => show win0_2.index t (0 : Fin 2) * 256 + 1 * p.val = win0_11.index t (0 : Fin 2) * 256 + p.val; omega
  | ⟨1, _⟩ => show win0_2.index t (1 : Fin 2) * 2048 + 1 * k.val = k.val; omega

/-- The tile of the cell state. -/
theorem read_ctile (c : Dev nD) (t : Fin cfg0.N) (p q : Fin 256) :
    iblk0 V c 3 t (ix2 p q) = V c main_arg4 (ix2 (rowOf t p) (colOf t q)) := by
  obtain ⟨-, -, -, -, -, -, e0, e1, -⟩ := block_places t
  show V c main_arg4 (((cfg0.win 3).blk t).view.emb (ix2 p q)) = V c main_arg4 (ix2 (rowOf t p) (colOf t q))
  refine congrArg _ (funext fun a => Fin.ext ?_)
  match a with
  | ⟨0, _⟩ => show win0_3.index t (0 : Fin 2) * 256 + 1 * p.val = win0_11.index t (0 : Fin 2) * 256 + p.val; omega
  | ⟨1, _⟩ => show win0_3.index t (1 : Fin 2) * 256 + 1 * q.val = win0_11.index t (1 : Fin 2) * 256 + q.val; omega

/-- The slabs of the gates' input weights. -/
theorem read_wih (c : Dev nD) (t : Fin cfg0.N) (q : Fin 256) (g : Fin 4) (k : Fin 2048) :
    iblk0 V c 4 t (ix3 g k q) = V c main_v2 (ix3 g k (colOf t q)) := by
  obtain ⟨-, -, -, -, -, -, -, -, e0, e1, e2, -⟩ := block_places t
  show V c main_v2 (((cfg0.win 4).blk t).view.emb (ix3 g k q)) = V c main_v2 (ix3 g k (colOf t q))
  refine congrArg _ (funext fun a => Fin.ext ?_)
  match a with
  | ⟨0, _⟩ => show win0_4.index t (0 : Fin 3) * 4 + 1 * g.val = g.val; omega
  | ⟨1, _⟩ => show win0_4.index t (1 : Fin 3) * 2048 + 1 * k.val = k.val; omega
  | ⟨2, _⟩ => show win0_4.index t (2 : Fin 3) * 256 + 1 * q.val = win0_11.index t (1 : Fin 2) * 256 + q.val; omega

/-- The slabs of the gates' hidden weights. -/
theorem read_whh (c : Dev nD) (t : Fin cfg0.N) (q : Fin 256) (g : Fin 4) (k : Fin 2048) :
    iblk0 V c 5 t (ix3 g k q) = V c main_v5 (ix3 g k (colOf t q)) := by
  obtain ⟨-, -, -, -, -, -, -, -, -, -, -, e0, e1, e2, -⟩ := block_places t
  show V c main_v5 (((cfg0.win 5).blk t).view.emb (ix3 g k q)) = V c main_v5 (ix3 g k (colOf t q))
  refine congrArg _ (funext fun a => Fin.ext ?_)
  match a with
  | ⟨0, _⟩ => show win0_5.index t (0 : Fin 3) * 4 + 1 * g.val = g.val; omega
  | ⟨1, _⟩ => show win0_5.index t (1 : Fin 3) * 2048 + 1 * k.val = k.val; omega
  | ⟨2, _⟩ => show win0_5.index t (2 : Fin 3) * 256 + 1 * q.val = win0_11.index t (1 : Fin 2) * 256 + q.val; omega

/-- The slab of the input gate's peephole weights. -/
theorem read_wpi (c : Dev nD) (t : Fin cfg0.N) (q : Fin 256) (k : Fin 2048) :
    iblk0 V c 6 t (ix2 k q) = V c main_v7 (ix2 k (colOf t q)) := by
  obtain ⟨-, -, -, -, -, -, -, -, -, -, -, -, -, -, e0, e1, -⟩ := block_places t
  show V c main_v7 (((cfg0.win 6).blk t).view.emb (ix2 k q)) = V c main_v7 (ix2 k (colOf t q))
  refine congrArg _ (funext fun a => Fin.ext ?_)
  match a with
  | ⟨0, _⟩ => show win0_6.index t (0 : Fin 2) * 2048 + 1 * k.val = k.val; omega
  | ⟨1, _⟩ => show win0_6.index t (1 : Fin 2) * 256 + 1 * q.val = win0_11.index t (1 : Fin 2) * 256 + q.val; omega

/-- The slab of the forget gate's peephole weights. -/
theorem read_wpf (c : Dev nD) (t : Fin cfg0.N) (q : Fin 256) (k : Fin 2048) :
    iblk0 V c 7 t (ix2 k q) = V c main_v9 (ix2 k (colOf t q)) := by
  obtain ⟨-, -, -, -, -, -, -, -, -, -, -, -, -, -, -, -, e0, e1, -⟩ := block_places t
  show V c main_v9 (((cfg0.win 7).blk t).view.emb (ix2 k q)) = V c main_v9 (ix2 k (colOf t q))
  refine congrArg _ (funext fun a => Fin.ext ?_)
  match a with
  | ⟨0, _⟩ => show win0_7.index t (0 : Fin 2) * 2048 + 1 * k.val = k.val; omega
  | ⟨1, _⟩ => show win0_7.index t (1 : Fin 2) * 256 + 1 * q.val = win0_11.index t (1 : Fin 2) * 256 + q.val; omega

/-- The slab of the summed biases. -/
theorem read_bias (c : Dev nD) (t : Fin cfg0.N) (q : Fin 256) (g : Fin 4) :
    iblk0 V c 8 t (ix2 g q) = V c main_v14 (ix2 g (colOf t q)) := by
  obtain ⟨-, -, -, -, -, -, -, -, -, -, -, -, -, -, -, -, -, -, e0, e1, -⟩ := block_places t
  show V c main_v14 (((cfg0.win 8).blk t).view.emb (ix2 g q)) = V c main_v14 (ix2 g (colOf t q))
  refine congrArg _ (funext fun a => Fin.ext ?_)
  match a with
  | ⟨0, _⟩ => show win0_8.index t (0 : Fin 2) * 4 + 1 * g.val = g.val; omega
  | ⟨1, _⟩ => show win0_8.index t (1 : Fin 2) * 256 + 1 * q.val = win0_11.index t (1 : Fin 2) * 256 + q.val; omega

/-- The band's forget-decay column. -/
theorem read_fdecay (c : Dev nD) (t : Fin cfg0.N) (p : Fin 256) :
    iblk0 V c 9 t (ix2 p 0) = V c main_v24 (ix2 (rowOf t p) 0) := by
  obtain ⟨-, -, -, -, -, -, -, -, -, -, -, -, -, -, -, -, -, -, -, -, e0, e1, -⟩ := block_places t
  show V c main_v24 (((cfg0.win 9).blk t).view.emb (ix2 p 0)) = V c main_v24 (ix2 (rowOf t p) 0)
  refine congrArg _ (funext fun a => Fin.ext ?_)
  match a with
  | ⟨0, _⟩ => show win0_9.index t (0 : Fin 2) * 256 + 1 * p.val = win0_11.index t (0 : Fin 2) * 256 + p.val; omega
  | ⟨1, _⟩ => show win0_9.index t (1 : Fin 2) * 1 + 1 * 0 = 0; omega

/-- The band's input-decay column. -/
theorem read_idecay (c : Dev nD) (t : Fin cfg0.N) (p : Fin 256) :
    iblk0 V c 10 t (ix2 p 0) = V c main_v31 (ix2 (rowOf t p) 0) := by
  obtain ⟨-, -, -, -, -, -, -, -, -, -, -, -, -, -, -, -, -, -, -, -, -, -, e0, e1, -⟩ := block_places t
  show V c main_v31 (((cfg0.win 10).blk t).view.emb (ix2 p 0)) = V c main_v31 (ix2 (rowOf t p) 0)
  refine congrArg _ (funext fun a => Fin.ext ?_)
  match a with
  | ⟨0, _⟩ => show win0_10.index t (0 : Fin 2) * 256 + 1 * p.val = win0_11.index t (0 : Fin 2) * 256 + p.val; omega
  | ⟨1, _⟩ => show win0_10.index t (1 : Fin 2) * 1 + 1 * 0 = 0; omega

/-! ## What a point writes back is a block of the whole-array function -/

/-- The new cell state's tile is tile (bt, ot) of the function of the eleven arrays. -/
theorem cy_flushed (c : Dev nD) (t : Fin cfg0.N) :
    (dat0 V c).flushed 11 t = ((cfg0.win 11).blk t).view.read (Elt Ideal) (onGrid (cyAt (V c main_v15) (V c main_v16) (V c main_v17) (V c main_arg4) (V c main_v2) (V c main_v5) (V c main_v7) (V c main_v9) (V c main_v14) (V c main_v24) (V c main_v31))) := by
  show (cfg0.win 11).cut (grid0.coords t) ((dat0 V c).after 11 t) = _
  rw [after0_11]
  funext j
  obtain ⟨p, q, rfl⟩ : ∃ (p q : Fin 256), j = ix2 p q := ⟨j 0, j 1, eq_ix2 j⟩
  show out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p q)
      = onGrid (cyAt (V c main_v15) (V c main_v16) (V c main_v17) (V c main_arg4) (V c main_v2) (V c main_v5) (V c main_v7) (V c main_v9) (V c main_v14) (V c main_v24) (V c main_v31)) (((cfg0.win 11).blk t).view.emb (ix2 p q))
  have hemb : ((cfg0.win 11).blk t).view.emb (ix2 p q) = ix2 (rowOf t p) (colOf t q) := funext fun a => Fin.ext (by
    match a with
    | ⟨0, _⟩ => show win0_11.index t (0 : Fin 2) * 256 + 1 * p.val = win0_11.index t (0 : Fin 2) * 256 + p.val; omega
    | ⟨1, _⟩ => show win0_11.index t (1 : Fin 2) * 256 + 1 * q.val = win0_11.index t (1 : Fin 2) * 256 + q.val; omega)
  rw [hemb, onGrid_ix2]
  exact cy_tile_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    (V c main_v15) (V c main_v16) (V c main_v17) (V c main_arg4) (V c main_v2) (V c main_v5) (V c main_v7) (V c main_v9) (V c main_v14) (V c main_v24) (V c main_v31) p q (rowOf t p) (colOf t q)
    (read_x V c t p) (read_h V c t p) (read_c V c t p) (read_ctile V c t p q) (read_wih V c t q) (read_whh V c t q)
    (read_wpi V c t q) (read_wpf V c t q) (read_bias V c t q) (read_fdecay V c t p) (read_idecay V c t p)

/-- Its bfloat16 copy: the same tile of the same function. -/
theorem cybf_flushed (c : Dev nD) (t : Fin cfg0.N) :
    (dat0 V c).flushed 12 t = ((cfg0.win 12).blk t).view.read (Elt Ideal) (onGrid (cyAt (V c main_v15) (V c main_v16) (V c main_v17) (V c main_arg4) (V c main_v2) (V c main_v5) (V c main_v7) (V c main_v9) (V c main_v14) (V c main_v24) (V c main_v31))) := by
  obtain ⟨-, -, -, -, -, -, -, -, -, -, -, -, -, -, -, -, -, -, -, -, -, -, -, -, e0, e1, -⟩ := block_places t
  show (cfg0.win 12).cut (grid0.coords t) ((dat0 V c).after 12 t) = _
  rw [after0_12]
  funext j
  obtain ⟨p, q, rfl⟩ : ∃ (p q : Fin 256), j = ix2 p q := ⟨j 0, j 1, eq_ix2 j⟩
  show out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p q)
      = onGrid (cyAt (V c main_v15) (V c main_v16) (V c main_v17) (V c main_arg4) (V c main_v2) (V c main_v5) (V c main_v7) (V c main_v9) (V c main_v14) (V c main_v24) (V c main_v31)) (((cfg0.win 12).blk t).view.emb (ix2 p q))
  have hemb : ((cfg0.win 12).blk t).view.emb (ix2 p q) = ix2 (rowOf t p) (colOf t q) := funext fun a => Fin.ext (by
    match a with
    | ⟨0, _⟩ => show win0_12.index t (0 : Fin 2) * 256 + 1 * p.val = win0_11.index t (0 : Fin 2) * 256 + p.val; omega
    | ⟨1, _⟩ => show win0_12.index t (1 : Fin 2) * 256 + 1 * q.val = win0_11.index t (1 : Fin 2) * 256 + q.val; omega)
  rw [hemb, onGrid_ix2, cybf_tile_at]
  exact cy_tile_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    (V c main_v15) (V c main_v16) (V c main_v17) (V c main_arg4) (V c main_v2) (V c main_v5) (V c main_v7) (V c main_v9) (V c main_v14) (V c main_v24) (V c main_v31) p q (rowOf t p) (colOf t q)
    (read_x V c t p) (read_h V c t p) (read_c V c t p) (read_ctile V c t p q) (read_wih V c t q) (read_whh V c t q)
    (read_wpi V c t q) (read_wpf V c t q) (read_bias V c t q) (read_fdecay V c t p) (read_idecay V c t p)

/-- The output gate's pre-activation tile. -/
theorem opre_flushed (c : Dev nD) (t : Fin cfg0.N) :
    (dat0 V c).flushed 13 t = ((cfg0.win 13).blk t).view.read (Elt Ideal) (onGrid (opreAt (V c main_v15) (V c main_v16) (V c main_v2) (V c main_v5) (V c main_v14))) := by
  obtain ⟨-, -, -, -, -, -, -, -, -, -, -, -, -, -, -, -, -, -, -, -, -, -, -, -, -, -, e0, e1⟩ := block_places t
  show (cfg0.win 13).cut (grid0.coords t) ((dat0 V c).after 13 t) = _
  rw [after0_13]
  funext j
  obtain ⟨p, q, rfl⟩ : ∃ (p q : Fin 256), j = ix2 p q := ⟨j 0, j 1, eq_ix2 j⟩
  show out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p q)
      = onGrid (opreAt (V c main_v15) (V c main_v16) (V c main_v2) (V c main_v5) (V c main_v14)) (((cfg0.win 13).blk t).view.emb (ix2 p q))
  have hemb : ((cfg0.win 13).blk t).view.emb (ix2 p q) = ix2 (rowOf t p) (colOf t q) := funext fun a => Fin.ext (by
    match a with
    | ⟨0, _⟩ => show win0_13.index t (0 : Fin 2) * 256 + 1 * p.val = win0_11.index t (0 : Fin 2) * 256 + p.val; omega
    | ⟨1, _⟩ => show win0_13.index t (1 : Fin 2) * 256 + 1 * q.val = win0_11.index t (1 : Fin 2) * 256 + q.val; omega)
  rw [hemb, onGrid_ix2]
  exact opre_tile_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    (V c main_v15) (V c main_v16) (V c main_v2) (V c main_v5) (V c main_v14) p q (rowOf t p) (colOf t q)
    (read_x V c t p) (read_h V c t p) (read_wih V c t q) (read_whh V c t q) (read_bias V c t q)

/-! ## The tiles cover the arrays -/

/-- Any index map onto the 16 x 8 tiling covers every entry: entry (r, s) is in tile (r / 256, s / 256). -/
theorem tiles_cover (idx : Fin cfg0.N → Fin 2 → Nat) (honto : ∀ (q0 : Fin 16) (q1 : Fin 8), ∃ t : Fin cfg0.N, idx t = ![q0.val, q1.val])
    (i : S4096x2048.Idx) :
    ∃ t : Fin cfg0.N, ∀ a : Fin 2, idx t a * S256x256.size a ≤ (i a).val ∧ (i a).val < idx t a * S256x256.size a + S256x256.size a := by
  have hi0 : (i 0).val < 4096 := idx2_lt0 i
  have hi1 : (i 1).val < 2048 := idx2_lt1 i
  obtain ⟨t, ht⟩ := honto ⟨(i 0).val / 256, by omega⟩ ⟨(i 1).val / 256, by omega⟩
  have q0 : idx t (0 : Fin 2) = (i 0).val / 256 := congrFun ht 0
  have q1 : idx t (1 : Fin 2) = (i 1).val / 256 := congrFun ht 1
  refine ⟨t, fun a => ?_⟩
  match a with
  | ⟨0, _⟩ => show idx t (0 : Fin 2) * 256 ≤ (i 0).val ∧ (i 0).val < idx t (0 : Fin 2) * 256 + 256; omega
  | ⟨1, _⟩ => show idx t (1 : Fin 2) * 256 ≤ (i 1).val ∧ (i 1).val < idx t (1 : Fin 2) * 256 + 256; omega

theorem tile_onto12 (q0 : Fin 16) (q1 : Fin 8) : ∃ t : Fin cfg0.N, win0_12.index t = ![q0.val, q1.val] := by
  obtain ⟨t, ht⟩ := tile_onto q0 q1
  obtain ⟨-, -, -, -, -, -, -, -, -, -, -, -, -, -, -, -, -, -, -, -, -, -, -, -, e0, e1, -⟩ := block_places t
  exact ⟨t, (funext fun a => by match a with | ⟨0, _⟩ => exact e0 | ⟨1, _⟩ => exact e1).trans ht⟩

theorem tile_onto13 (q0 : Fin 16) (q1 : Fin 8) : ∃ t : Fin cfg0.N, win0_13.index t = ![q0.val, q1.val] := by
  obtain ⟨t, ht⟩ := tile_onto q0 q1
  obtain ⟨-, -, -, -, -, -, -, -, -, -, -, -, -, -, -, -, -, -, -, -, -, -, -, -, -, -, e0, e1⟩ := block_places t
  exact ⟨t, (funext fun a => by match a with | ⟨0, _⟩ => exact e0 | ⟨1, _⟩ => exact e1).trans ht⟩

/-- An entry is in a point's tile iff each coordinate is in the tile's range. -/
theorem mem_tile11 (t : Fin cfg0.N) (i : S4096x2048.Idx) :
    i ∈ ((cfg0.win 11).blk t).view.set ↔ ∀ a : Fin 2, win0_11.index t a * S256x256.size a ≤ (i a).val ∧ (i a).val < win0_11.index t a * S256x256.size a + S256x256.size a := by
  show i ∈ ((View.whole main_v32_0).slice (win0_11.rect t)).set ↔ _
  rw [View.set_slice_whole, Rect.mem_set_unit]
  exact Iff.rfl
theorem mem_tile12 (t : Fin cfg0.N) (i : S4096x2048.Idx) :
    i ∈ ((cfg0.win 12).blk t).view.set ↔ ∀ a : Fin 2, win0_12.index t a * S256x256.size a ≤ (i a).val ∧ (i a).val < win0_12.index t a * S256x256.size a + S256x256.size a := by
  show i ∈ ((View.whole main_v32_1).slice (win0_12.rect t)).set ↔ _
  rw [View.set_slice_whole, Rect.mem_set_unit]
  exact Iff.rfl
theorem mem_tile13 (t : Fin cfg0.N) (i : S4096x2048.Idx) :
    i ∈ ((cfg0.win 13).blk t).view.set ↔ ∀ a : Fin 2, win0_13.index t a * S256x256.size a ≤ (i a).val ∧ (i a).val < win0_13.index t a * S256x256.size a + S256x256.size a := by
  show i ∈ ((View.whole main_v32_2).slice (win0_13.rect t)).set ↔ _
  rw [View.set_slice_whole, Rect.mem_set_unit]
  exact Iff.rfl

/-! ## The three arrays after the kernel -/

/-- The new cell state, whole. -/
theorem cy_array (c : Dev nD) :
    (dat0 V c).arrAt 11 cfg0.N = onGrid (cyAt (V c main_v15) (V c main_v16) (V c main_v17) (V c main_arg4) (V c main_v2) (V c main_v5) (V c main_v7) (V c main_v9) (V c main_v14) (V c main_v24) (V c main_v31)) :=
  (dat0 V c).arrAt_eq_of_cover 11 _ (fun t _ => cy_flushed V c t) fun i => by
    obtain ⟨t, ht⟩ := tiles_cover win0_11.index tile_onto i
    exact ⟨t, flush0_11 t, (mem_tile11 t i).mpr ht⟩

/-- Its bfloat16 copy, whole: the same numbers. -/
theorem cybf_array (c : Dev nD) :
    (dat0 V c).arrAt 12 cfg0.N = onGrid (cyAt (V c main_v15) (V c main_v16) (V c main_v17) (V c main_arg4) (V c main_v2) (V c main_v5) (V c main_v7) (V c main_v9) (V c main_v14) (V c main_v24) (V c main_v31)) :=
  (dat0 V c).arrAt_eq_of_cover 12 _ (fun t _ => cybf_flushed V c t) fun i => by
    obtain ⟨t, ht⟩ := tiles_cover win0_12.index tile_onto12 i
    exact ⟨t, flush0_12 t, (mem_tile12 t i).mpr ht⟩

/-- The output gate's pre-activation, whole. -/
theorem opre_array (c : Dev nD) :
    (dat0 V c).arrAt 13 cfg0.N = onGrid (opreAt (V c main_v15) (V c main_v16) (V c main_v2) (V c main_v5) (V c main_v14)) :=
  (dat0 V c).arrAt_eq_of_cover 13 _ (fun t _ => opre_flushed V c t) fun i => by
    obtain ⟨t, ht⟩ := tiles_cover win0_13.index tile_onto13 i
    exact ⟨t, flush0_13 t, (mem_tile13 t i).mpr ht⟩

end Cert.KernelIdeal.GatesArray

end
-- ==== Proof.FinalizePoint.lean ====
/-
  The finalize kernel at one grid point, entry by entry.

  At a point the kernel holds a 256-row band of the output gate's pre-activation, of the new cell state (twice:
  once as the matrix product's left operand, once for the hyperbolic tangent) and the whole [2048, 2048] output
  peephole weights.  Entry (p, o) of the band it writes is the logistic function of the pre-activation's entry
  plus row p of the cell state against column o of the weights, times the hyperbolic tangent of the cell
  state's entry.
-/
import proofs.«417413_j34875134443722_3_alg».proof.Proof.Gen.KernelIdeal.Frame
import proofs.«417413_j34875134443722_3_alg».proof.Proof.Cells
import Idealize.ShloMosaic.Lib.ValueIdx
import Idealize.ShloMosaic.Lib.Pipeline.Value
import Idealize.ShloMosaic.PureOps.Ideal.Laws

set_option maxRecDepth 16384

noncomputable section

namespace Cert.KernelIdeal.FinalizePoint

open Cert.KernelIdeal Cert.KernelIdeal.Gen Cert.LstmCell
open Idealize.ShloMosaic Idealize.ShloMosaic.ValueIdx

theorem lhs_band_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_band_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_full_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_full_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- A band times the whole weight matrix into a zero accumulator: entry (p, o) is row p against column o. -/
theorem band_full_at (a : FVec Ideal S256x2048 .bf16) (w : FVec Ideal S2048x2048 .bf16) (p : Fin 256) (o : Fin 2048) :
    matmul dot_S256x2048_S2048x2048_S256x2048_1_0_0_1_n_n none a w (constant (F := Ideal) S256x2048 .f32 0x00000000#32) (ix2 p o)
      = dot (fun k => a (ix2 p k)) (fun k => w (ix2 k o)) := by
  unfold dot
  show FloatOps.matmul dot_S256x2048_S2048x2048_S256x2048_1_0_0_1_n_n none a w (constant (F := Ideal) S256x2048 .f32 0x00000000#32) (ix2 p o) = _
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p o) ((contrEquiv1 dot_S256x2048_S2048x2048_S256x2048_1_0_0_1_n_n 2048 rfl rfl).symm k) = ix2 p k := funext fun a => Fin.ext (by
    match a with
    | ⟨0, _⟩ => exact lhs_band_0 _ _
    | ⟨1, _⟩ => exact (lhs_band_1 _ _).trans hk)
  have er : dot_S256x2048_S2048x2048_S256x2048_1_0_0_1_n_n.rhsIdx (ix2 p o) ((contrEquiv1 dot_S256x2048_S2048x2048_S256x2048_1_0_0_1_n_n 2048 rfl rfl).symm k) = ix2 k o := funext fun a => Fin.ext (by
    match a with
    | ⟨0, _⟩ => exact (rhs_full_0 _ _).trans hk
    | ⟨1, _⟩ => exact rhs_full_1 _ _)
  rw [el, er]

theorem zero2 : (![0, 0] : Fin 2 → Nat) = fun _ => 0 := funext fun a => by fin_cases a <;> rfl

/-- The logistic function and the hyperbolic tangent act entry by entry. -/
theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-- The body's one value at an entry. -/
theorem pay1_at (v0 : Vec Ideal S256x2048 .f32) (v2 : Vec Ideal S256x2048 .bf16) (v4 : Vec Ideal S256x2048 .f32) (v6 : Vec Ideal S2048x2048 .bf16)
    (p : Fin 256) (o : Fin 2048) :
    k1_pay1 v0 v2 v4 v6 (ix2 p o)
      = hyCell (v0 (ix2 p o)) (fun k => v2 (ix2 p k)) (fun k => v6 (ix2 k o)) (v4 (ix2 p o)) := by
  unfold k1_pay1 hyCell
  rw [mulf_apply, logistic_at, tanh_at, addf_apply, band_full_at]
  simp only [shapeCast_self]

/-- The new hidden state's band. -/
theorem hy_tile_at (x0 : Vec Ideal S256x2048 .f32) (x1 : Vec Ideal S256x2048 .bf16) (x2 : Vec Ideal S256x2048 .f32) (x3 : Vec Ideal S2048x2048 .bf16)
    (p : Fin 256) (o : Fin 2048) :
    out1_4 x0 x1 x2 x3 (ix2 p o)
      = hyCell (x0 (ix2 p o)) (fun k => x1 (ix2 p k)) (fun k => x3 (ix2 k o)) (x2 (ix2 p o)) := by
  unfold out1_4
  rw [View.canon_unit_zero zero2]
  simp only [View.ld_unit_zero (S := S256x2048) zero2, View.ld_unit_zero (S := S2048x2048) zero2]
  exact pay1_at x0 x1 x2 x3 p o

end Cert.KernelIdeal.FinalizePoint

end
-- ==== Proof.FinalizeArray.lean ====
/-
  The finalize kernel over its whole grid.

  The grid is the 16 row bands.  At band bt the pre-activation, the two copies of the new cell state and the
  band written are rows bt*256 .. bt*256+255 of their arrays, and the output peephole weights are whole.  So entry
  (p, o) of the written band is the cell function of row bt*256+p: the band is a block of ONE function of the
  whole arrays, the 16 bands cover the [4096, 2048] array, and after the kernel the new hidden state IS that
  function.  The new cell state's array is only read here, so it leaves the kernel as it entered.
-/
import proofs.«417413_j34875134443722_3_alg».proof.Proof.Gen.KernelIdeal.Frame
import proofs.«417413_j34875134443722_3_alg».proof.Proof.FinalizePoint
import proofs.«417413_j34875134443722_3_alg».proof.Proof.Spec
import Idealize.ShloMosaic.Lib.ValueIdx
import Idealize.ShloMosaic.Lib.Pipeline.Value

set_option maxRecDepth 16384

noncomputable section

namespace Cert.KernelIdeal.FinalizeArray

open Cert.KernelIdeal Cert.KernelIdeal.Gen Cert.KernelIdeal.FinalizePoint Cert.LstmCell
open Idealize.ShloMosaic Idealize.ShloMosaic.TcCoe Idealize.ShloMosaic.ValueIdx Idealize.SL.Sem
open Idealize.ShloMosaic.Pipeline (Dat Cfg Window)

/-- The new hidden state's entry (b, o) from the kernel's four operand arrays. -/
def hyAt (b0 b1 b2 : S4096x2048.Idx → EReal) (b3 : S2048x2048.Idx → EReal) (b : Fin 4096) (o : Fin 2048) : EReal :=
  hyCell (b0 (ix2 b o)) (fun k => b1 (ix2 b k)) (fun k => b3 (ix2 k o)) (b2 (ix2 b o))

/-! ## Where each block sits, decided once over the grid -/

theorem band_places : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 15 :=
  (by decide +kernel : ∀ t : Fin grid1.N, _)

/-- Every band is some point's. -/
theorem band_onto : ∀ q0 : Fin 16, ∃ t : Fin cfg1.N, win1_4.index t = ![q0.val, 0] :=
  (by decide +kernel : ∀ q0 : Fin 16, ∃ t : Fin grid1.N, win1_4.index t = ![q0.val, 0])

/-- The array this kernel only reads is never written back. -/
theorem cy_not_flushed : ∀ t : Fin cfg1.N, (cfg1.win 2).flush t = false :=
  (by decide +kernel : ∀ t : Fin grid1.N, _)

/-- The band's first row at a point, as a number below the arrays' row count. -/
def rowOf (t : Fin cfg1.N) (p : Fin 256) : Fin 4096 :=
  ⟨win1_4.index t (0 : Fin 2) * 256 + p.val, by have := (band_places t).2.2.2.2.2.2.2.2.2; have := p.isLt; omega⟩

/-! ## A written band entry from the whole arrays, given where the point's blocks sit -/

theorem hy_band_eq (x0 : Vec Ideal S256x2048 .f32) (x1 : Vec Ideal S256x2048 .bf16) (x2 : Vec Ideal S256x2048 .f32) (x3 : Vec Ideal S2048x2048 .bf16)
    (b0 b1 b2 : S4096x2048.Idx → EReal) (b3 : S2048x2048.Idx → EReal) (p : Fin 256) (o : Fin 2048) (b : Fin 4096)
    (h0 : x0 (ix2 p o) = b0 (ix2 b o)) (h1 : ∀ k, x1 (ix2 p k) = b1 (ix2 b k)) (h2 : x2 (ix2 p o) = b2 (ix2 b o))
    (h3 : ∀ k, x3 (ix2 k o) = b3 (ix2 k o)) :
    out1_4 x0 x1 x2 x3 (ix2 p o) = hyAt b0 b1 b2 b3 b o := by
  rw [hy_tile_at]
  unfold hyAt
  rw [h0, funext h1, h2, funext h3]

/-! ## The blocks read off the arrays as the kernel finds them -/

variable (V : (c : Dev nD) → (b : Ref sig .tc) → Buf (Elt Ideal) ((c : Thread nD τ).loc b))

/-- The band of the output gate's pre-activation. -/
theorem read_opre (c : Dev nD) (t : Fin cfg1.N) (p : Fin 256) (o : Fin 2048) :
    iblk1 V c 0 t (ix2 p o) = V c main_v32_2 (ix2 (rowOf t p) o) := by
  obtain ⟨e0, e1, -⟩ := band_places t
  show V c main_v32_2 (((cfg1.win 0).blk t).view.emb (ix2 p o)) = V c main_v32_2 (ix2 (rowOf t p) o)
  refine congrArg _ (funext fun a => Fin.ext ?_)
  match a with
  | ⟨0, _⟩ => show win1_0.index t (0 : Fin 2) * 256 + 1 * p.val = win1_4.index t (0 : Fin 2) * 256 + p.val; omega
  | ⟨1, _⟩ => show win1_0.index t (1 : Fin 2) * 2048 + 1 * o.val = o.val; omega

/-- The band of the new cell state's bfloat16 copy. -/
theorem read_cybf (c : Dev nD) (t : Fin cfg1.N) (p : Fin 256) (k : Fin 2048) :
    iblk1 V c 1 t (ix2 p k) = V c main_v32_1 (ix2 (rowOf t p) k) := by
  obtain ⟨-, -, e0, e1, -⟩ := band_places t
  show V c main_v32_1 (((cfg1.win 1).blk t).view.emb (ix2 p k)) = V c main_v32_1 (ix2 (rowOf t p) k)
  refine congrArg _ (funext fun a => Fin.ext ?_)
  match a with
  | ⟨0, _⟩ => show win1_1.index t (0 : Fin 2) * 256 + 1 * p.val = win1_4.index t (0 : Fin 2) * 256 + p.val; omega
  | ⟨1, _⟩ => show win1_1.index t (1 : Fin 2) * 2048 + 1 * k.val = k.val; omega

/-- The band of the new cell state. -/
theorem read_cy (c : Dev nD) (t : Fin cfg1.N) (p : Fin 256) (o : Fin 2048) :
    iblk1 V c 2 t (ix2 p o) = V c main_v32_0 (ix2 (rowOf t p) o) := by
  obtain ⟨-, -, -, -, e0, e1, -⟩ := band_places t
  show V c main_v32_0 (((cfg1.win 2).blk t).view.emb (ix2 p o)) = V c main_v32_0 (ix2 (rowOf t p) o)
  refine congrArg _ (funext fun a => Fin.ext ?_)
  match a with
  | ⟨0, _⟩ => show win1_2.index t (0 : Fin 2) * 256 + 1 * p.val = win1_4.index t (0 : Fin 2) * 256 + p.val; omega
  | ⟨1, _⟩ => show win1_2.index t (1 : Fin 2) * 2048 + 1 * o.val = o.val; omega

/-- The output peephole weights, whole at every point. -/
theorem read_wpo (c : Dev nD) (t : Fin cfg1.N) (o : Fin 2048) (k : Fin 2048) :
    iblk1 V c 3 t (ix2 k o) = V c main_v11 (ix2 k o) := by
  obtain ⟨-, -, -, -, -, -, e0, e1, -⟩ := band_places t
  show V c main_v11 (((cfg1.win 3).blk t).view.emb (ix2 k o)) = V c main_v11 (ix2 k o)
  refine congrArg _ (funext fun a => Fin.ext ?_)
  match a with
  | ⟨0, _⟩ => show win1_3.index t (0 : Fin 2) * 2048 + 1 * k.val = k.val; omega
  | ⟨1, _⟩ => show win1_3.index t (1 : Fin 2) * 2048 + 1 * o.val = o.val; omega

/-! ## What a point writes back, the cover, and the array after the kernel -/

/-- The written band is band bt of the function of the four arrays. -/
theorem hy_flushed (c : Dev nD) (t : Fin cfg1.N) :
    (dat1 V c).flushed 4 t = ((cfg1.win 4).blk t).view.read (Elt Ideal) (onGrid (hyAt (V c main_v32_2) (V c main_v32_1) (V c main_v32_0) (V c main_v11))) := by
  obtain ⟨-, -, -, -, -, -, -, -, e1, -⟩ := band_places t
  show (cfg1.win 4).cut (grid1.coords t) ((dat1 V c).after 4 t) = _
  rw [after1_4]
  funext j
  obtain ⟨p, o, rfl⟩ : ∃ (p : Fin 256) (o : Fin 2048), j = ix2 p o := ⟨j 0, j 1, eq_ix2 j⟩
  show out1_4 (iblk1 V c 0 t) (iblk1 V c 1 t) (iblk1 V c 2 t) (iblk1 V c 3 t) (ix2 p o)
      = onGrid (hyAt (V c main_v32_2) (V c main_v32_1) (V c main_v32_0) (V c main_v11)) (((cfg1.win 4).blk t).view.emb (ix2 p o))
  have hemb : ((cfg1.win 4).blk t).view.emb (ix2 p o) = ix2 (rowOf t p) o := funext fun a => Fin.ext (by
    match a with
    | ⟨0, _⟩ => show win1_4.index t (0 : Fin 2) * 256 + 1 * p.val = win1_4.index t (0 : Fin 2) * 256 + p.val; omega
    | ⟨1, _⟩ => show win1_4.index t (1 : Fin 2) * 2048 + 1 * o.val = o.val; omega)
  rw [hemb, onGrid_ix2]
  exact hy_band_eq (iblk1 V c 0 t) (iblk1 V c 1 t) (iblk1 V c 2 t) (iblk1 V c 3 t) (V c main_v32_2) (V c main_v32_1) (V c main_v32_0) (V c main_v11) p o (rowOf t p)
    (read_opre V c t p o) (read_cybf V c t p) (read_cy V c t p o) (read_wpo V c t o)

/-- An entry is in a point's band iff each coordinate is in the band's range. -/
theorem mem_band (t : Fin cfg1.N) (i : S4096x2048.Idx) :
    i ∈ ((cfg1.win 4).blk t).view.set ↔ ∀ a : Fin 2, win1_4.index t a * S256x2048.size a ≤ (i a).val ∧ (i a).val < win1_4.index t a * S256x2048.size a + S256x2048.size a := by
  show i ∈ ((View.whole main_v33).slice (win1_4.rect t)).set ↔ _
  rw [View.set_slice_whole, Rect.mem_set_unit]
  exact Iff.rfl

/-- The bands cover the array: entry (r, s) is in band r / 256. -/
theorem bands_cover (i : S4096x2048.Idx) : ∃ t : Fin cfg1.N, (cfg1.win 4).flush t = true ∧ i ∈ ((cfg1.win 4).blk t).view.set := by
  have hi0 : (i 0).val < 4096 := idx2_lt0 i
  have hi1 : (i 1).val < 2048 := idx2_lt1 i
  obtain ⟨t, ht⟩ := band_onto ⟨(i 0).val / 256, by omega⟩
  have q0 : win1_4.index t (0 : Fin 2) = (i 0).val / 256 := congrFun ht 0
  have q1 : win1_4.index t (1 : Fin 2) = 0 := congrFun ht 1
  refine ⟨t, flush1_4 t, (mem_band t i).mpr fun a => ?_⟩
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 2048 ≤ (i 1).val ∧ (i 1).val < win1_4.index t (1 : Fin 2) * 2048 + 2048; omega

/-- The new hidden state, whole. -/
theorem hy_array (c : Dev nD) :
    (dat1 V c).arrAt 4 cfg1.N = onGrid (hyAt (V c main_v32_2) (V c main_v32_1) (V c main_v32_0) (V c main_v11)) :=
  (dat1 V c).arrAt_eq_of_cover 4 _ (fun t _ => hy_flushed V c t) (bands_cover)

/-- The new cell state's array leaves this kernel as it entered it. -/
theorem cy_kept (c : Dev nD) : (dat1 V c).arrAt 2 cfg1.N = V c main_v32_0 := by
  funext i
  rw [(dat1 V c).arrAt_apply_of_forall_not_mem 2 cfg1.N i fun t _ hf => absurd hf (by rw [cy_not_flushed t]; exact Bool.false_ne_true), A_eq1]

end Cert.KernelIdeal.FinalizeArray

end
-- ==== Proof.HostReads.lean ====
/-
  What the kernels' operand arrays hold, entry by entry, in terms of the arguments.

  Before the first kernel the program casts the three activations to bfloat16 (no change on the extended reals),
  regroups each [8192, 2048] gate weight array as [4, 2048, 2048] and swaps its last two axes (so entry (g, k, o) is
  the argument's entry (g * 2048 + o, k)), transposes the peephole weights (entry (k, o) is the argument's (o, k)),
  adds the two bias vectors regrouped as [4, 2048], and builds the two decay columns a * exp ((-r) * d[b]).
-/
import proofs.«417413_j34875134443722_3_alg».proof.Proof.Gen.KernelIdeal.Frame
import proofs.«417413_j34875134443722_3_alg».proof.Proof.Spec
import Idealize.ShloMosaic.Lib.StableHlo.Run
import Idealize.ShloMosaic.Lib.ValueIdx
import Idealize.ShloMosaic.Lib.Pipeline.Value
import Idealize.ShloMosaic.PureOps.Ideal

set_option maxRecDepth 16384

noncomputable section

namespace Cert.KernelIdeal.HostReads

open Cert.KernelIdeal Cert.KernelIdeal.Gen Cert.LstmCell
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The fourteen arguments, each at its shape -/

abbrev xA (c : Dev nD) : S4096x2048.Idx → EReal := m ((c : Thread nD τ).loc main_arg0)
abbrev td0A (c : Dev nD) : S4096.Idx → EReal := m ((c : Thread nD τ).loc main_arg1)
abbrev td1A (c : Dev nD) : S4096.Idx → EReal := m ((c : Thread nD τ).loc main_arg2)
abbrev hA (c : Dev nD) : S4096x2048.Idx → EReal := m ((c : Thread nD τ).loc main_arg3)
abbrev cA (c : Dev nD) : S4096x2048.Idx → EReal := m ((c : Thread nD τ).loc main_arg4)
abbrev wihA (c : Dev nD) : S8192x2048.Idx → EReal := m ((c : Thread nD τ).loc main_arg5)
abbrev whhA (c : Dev nD) : S8192x2048.Idx → EReal := m ((c : Thread nD τ).loc main_arg6)
abbrev wpiA (c : Dev nD) : S2048x2048.Idx → EReal := m ((c : Thread nD τ).loc main_arg7)
abbrev wpfA (c : Dev nD) : S2048x2048.Idx → EReal := m ((c : Thread nD τ).loc main_arg8)
abbrev wpoA (c : Dev nD) : S2048x2048.Idx → EReal := m ((c : Thread nD τ).loc main_arg9)
abbrev bihA (c : Dev nD) : S8192.Idx → EReal := m ((c : Thread nD τ).loc main_arg10)
abbrev bhhA (c : Dev nD) : S8192.Idx → EReal := m ((c : Thread nD τ).loc main_arg11)
abbrev aA (c : Dev nD) : S1.Idx → EReal := m ((c : Thread nD τ).loc main_arg12)
abbrev rA (c : Dev nD) : S1.Idx → EReal := m ((c : Thread nD τ).loc main_arg13)

/-! ## The activations -/

set_option maxHeartbeats 4000000 in
theorem x_read (c : Dev nD) (b : Fin 4096) (k : Fin 2048) : V1 m ρ c main_v15 (ix2 b k) = xA m c (ix2 b k) := by
  have e : @Eq (S4096x2048.Idx → EReal) (V1 m ρ c main_v15) (truncf (F := Ideal) (φ := .f32) .bf16 (xA m c) bitsLt_bf16_f32) := by
    dsimp only [V1, W1, W0, hostOps0]
    after_results_simp
    try rfl
  exact congrFun e (ix2 b k)

set_option maxHeartbeats 4000000 in
theorem h_read (c : Dev nD) (b : Fin 4096) (k : Fin 2048) : V1 m ρ c main_v16 (ix2 b k) = hA m c (ix2 b k) := by
  have e : @Eq (S4096x2048.Idx → EReal) (V1 m ρ c main_v16) (truncf (F := Ideal) (φ := .f32) .bf16 (hA m c) bitsLt_bf16_f32) := by
    dsimp only [V1, W1, W0, hostOps0]
    after_results_simp
    try rfl
  exact congrFun e (ix2 b k)

set_option maxHeartbeats 4000000 in
theorem cbf_read (c : Dev nD) (b : Fin 4096) (k : Fin 2048) : V1 m ρ c main_v17 (ix2 b k) = cA m c (ix2 b k) := by
  have e : @Eq (S4096x2048.Idx → EReal) (V1 m ρ c main_v17) (truncf (F := Ideal) (φ := .f32) .bf16 (cA m c) bitsLt_bf16_f32) := by
    dsimp only [V1, W1, W0, hostOps0]
    after_results_simp
    try rfl
  exact congrFun e (ix2 b k)

set_option maxHeartbeats 4000000 in
theorem c_read (c : Dev nD) : @Eq (S4096x2048.Idx → EReal) (V1 m ρ c main_arg4) (cA m c) := by
  dsimp only [V1, W1, W0, hostOps0]
  after_results_simp
  try rfl

/-! ## The gates' weights -/

/-- A [8192, 2048] array regrouped as [4, 2048, 2048] with its last two axes swapped, at (g, k, o). -/
theorem regrouped_at (w : S8192x2048.Idx → EReal) (g : Fin 4) (k o : Fin 2048) :
    transpose S4x2048x2048 [0, 2, 1] (shapeCast S4x2048x2048 w shapeCasts_S8192x2048_S4x2048x2048) transposes_S4x2048x2048_S4x2048x2048_0_2_1 (ix3 g k o)
      = w (ix2 (stacked g o) k) := by
  rw [transpose_apply [0, 2, 1] _ transposes_S4x2048x2048_S4x2048x2048_0_2_1 (ix3 g k o) (ix3 g o k) (fun b => match b with
    | ⟨0, _⟩ => rfl
    | ⟨1, _⟩ => rfl
    | ⟨2, _⟩ => rfl)]
  refine shapeCast_apply w shapeCasts_S8192x2048_S4x2048x2048 (ix3 g o k) (ix2 (stacked g o) k) ?_
  rw [Shape.rowMajor_val_two, Shape.rowMajor_val_three]
  rfl

set_option maxHeartbeats 4000000 in
theorem wih_read (c : Dev nD) (g : Fin 4) (k o : Fin 2048) :
    V1 m ρ c main_v2 (ix3 g k o) = wihA m c (ix2 (stacked g o) k) := by
  have e : @Eq (S4x2048x2048.Idx → EReal) (V1 m ρ c main_v2)
      (truncf (F := Ideal) (φ := .f32) .bf16 (transpose S4x2048x2048 [0, 2, 1] (shapeCast S4x2048x2048 (wihA m c) shapeCasts_S8192x2048_S4x2048x2048) transposes_S4x2048x2048_S4x2048x2048_0_2_1) bitsLt_bf16_f32) := by
    dsimp only [V1, W1, W0, hostOps0]
    after_results_simp
    try rfl
  exact (congrFun e (ix3 g k o)).trans (regrouped_at _ g k o)

set_option maxHeartbeats 4000000 in
theorem whh_read (c : Dev nD) (g : Fin 4) (k o : Fin 2048) :
    V1 m ρ c main_v5 (ix3 g k o) = whhA m c (ix2 (stacked g o) k) := by
  have e : @Eq (S4x2048x2048.Idx → EReal) (V1 m ρ c main_v5)
      (truncf (F := Ideal) (φ := .f32) .bf16 (transpose S4x2048x2048 [0, 2, 1] (shapeCast S4x2048x2048 (whhA m c) shapeCasts_S8192x2048_S4x2048x2048) transposes_S4x2048x2048_S4x2048x2048_0_2_1) bitsLt_bf16_f32) := by
    dsimp only [V1, W1, W0, hostOps0]
    after_results_simp
    try rfl
  exact (congrFun e (ix3 g k o)).trans (regrouped_at _ g k o)

/-! ## The peephole weights -/

/-- A [2048, 2048] array transposed, at (k, o). -/
theorem transposed_at (w : S2048x2048.Idx → EReal) (k o : Fin 2048) :
    transpose S2048x2048 [1, 0] w transposes_S2048x2048_S2048x2048_1_0 (ix2 k o) = w (ix2 o k) :=
  transpose_apply [1, 0] w transposes_S2048x2048_S2048x2048_1_0 (ix2 k o) (ix2 o k) (fun b => match b with
    | ⟨0, _⟩ => rfl
    | ⟨1, _⟩ => rfl)

set_option maxHeartbeats 4000000 in
theorem wpi_read (c : Dev nD) (k o : Fin 2048) : V1 m ρ c main_v7 (ix2 k o) = wpiA m c (ix2 o k) := by
  have e : @Eq (S2048x2048.Idx → EReal) (V1 m ρ c main_v7)
      (truncf (F := Ideal) (φ := .f32) .bf16 (transpose S2048x2048 [1, 0] (wpiA m c) transposes_S2048x2048_S2048x2048_1_0) bitsLt_bf16_f32) := by
    dsimp only [V1, W1, W0, hostOps0]
    after_results_simp
    try rfl
  exact (congrFun e (ix2 k o)).trans (transposed_at _ k o)

set_option maxHeartbeats 4000000 in
theorem wpf_read (c : Dev nD) (k o : Fin 2048) : V1 m ρ c main_v9 (ix2 k o) = wpfA m c (ix2 o k) := by
  have e : @Eq (S2048x2048.Idx → EReal) (V1 m ρ c main_v9)
      (truncf (F := Ideal) (φ := .f32) .bf16 (transpose S2048x2048 [1, 0] (wpfA m c) transposes_S2048x2048_S2048x2048_1_0) bitsLt_bf16_f32) := by
    dsimp only [V1, W1, W0, hostOps0]
    after_results_simp
    try rfl
  exact (congrFun e (ix2 k o)).trans (transposed_at _ k o)

set_option maxHeartbeats 4000000 in
theorem wpo_read (c : Dev nD) (k o : Fin 2048) : V1 m ρ c main_v11 (ix2 k o) = wpoA m c (ix2 o k) := by
  have e : @Eq (S2048x2048.Idx → EReal) (V1 m ρ c main_v11)
      (truncf (F := Ideal) (φ := .f32) .bf16 (transpose S2048x2048 [1, 0] (wpoA m c) transposes_S2048x2048_S2048x2048_1_0) bitsLt_bf16_f32) := by
    dsimp only [V1, W1, W0, hostOps0]
    after_results_simp
    try rfl
  exact (congrFun e (ix2 k o)).trans (transposed_at _ k o)

/-! ## The summed biases -/

/-- A [8192] vector regrouped as [4, 2048], at (g, o). -/
theorem regrouped_bias_at (v : S8192.Idx → EReal) (g : Fin 4) (o : Fin 2048) :
    shapeCast S4x2048 v shapeCasts_S8192_S4x2048 (ix2 g o) = v (ix1 (stacked g o)) := by
  refine shapeCast_apply v shapeCasts_S8192_S4x2048 (ix2 g o) (ix1 (stacked g o)) ?_
  rw [Shape.rowMajor_val_one, Shape.rowMajor_val_two]
  rfl

set_option maxHeartbeats 4000000 in
theorem bias_read (c : Dev nD) (g : Fin 4) (o : Fin 2048) :
    V1 m ρ c main_v14 (ix2 g o) = bihA m c (ix1 (stacked g o)) + bhhA m c (ix1 (stacked g o)) := by
  have e : @Eq (S4x2048.Idx → EReal) (V1 m ρ c main_v14)
      (addf (F := Ideal) (φ := .f32) (shapeCast S4x2048 (bihA m c) shapeCasts_S8192_S4x2048) (shapeCast S4x2048 (bhhA m c) shapeCasts_S8192_S4x2048)) := by
    dsimp only [V1, W1, W0, hostOps0]
    after_results_simp
    try rfl
  refine (congrFun e (ix2 g o)).trans ?_
  rw [addf_apply, regrouped_bias_at, regrouped_bias_at]

/-! ## The decay columns -/

/-- The decay column built from a scale a, a rate r and a gap vector d, at (b, 0). -/
theorem decay_col_at (a r : S1.Idx → EReal) (d : S4096.Idx → EReal) (b : Fin 4096) :
    broadcastInDim S4096x1 ![0] bcast_S4096_S4096x1_0
        (mulf (F := Ideal) (φ := .f32) (broadcastInDim S4096 ![0] bcast_S1_S4096_0 a)
          (Host.exp (F := Ideal) (φ := .f32) (mulf (F := Ideal) (φ := .f32) (broadcastInDim S4096 ![0] bcast_S1_S4096_0 (Host.negf (F := Ideal) (φ := .f32) r)) d))) (ix2 b 0)
      = decay a r d b := by
  rw [broadcastInDim_apply ![0] bcast_S4096_S4096x1_0 _ (ix2 b 0) (ix1 b) (fun x => match x with
    | ⟨0, _⟩ => rfl)]
  rw [mulf_apply]
  rw [broadcastInDim_apply ![0] bcast_S1_S4096_0 a (ix1 b) (ix1 0) (fun x => match x with
    | ⟨0, _⟩ => rfl)]
  show a (ix1 0) * Ideal.exp (mulf (F := Ideal) (φ := .f32) (broadcastInDim S4096 ![0] bcast_S1_S4096_0 (Host.negf (F := Ideal) (φ := .f32) r)) d (ix1 b)) = _
  rw [mulf_apply]
  rw [broadcastInDim_apply ![0] bcast_S1_S4096_0 (Host.negf (F := Ideal) (φ := .f32) r) (ix1 b) (ix1 0) (fun x => match x with
    | ⟨0, _⟩ => rfl)]
  rfl

set_option maxHeartbeats 8000000 in
theorem fdecay_read (c : Dev nD) (b : Fin 4096) :
    V1 m ρ c main_v24 (ix2 b 0) = decay (aA m c) (rA m c) (td0A m c) b := by
  have e : @Eq (S4096x1.Idx → EReal) (V1 m ρ c main_v24)
      (broadcastInDim S4096x1 ![0] bcast_S4096_S4096x1_0
          (mulf (F := Ideal) (φ := .f32) (broadcastInDim S4096 ![0] bcast_S1_S4096_0 (aA m c))
            (Host.exp (F := Ideal) (φ := .f32) (mulf (F := Ideal) (φ := .f32) (broadcastInDim S4096 ![0] bcast_S1_S4096_0 (Host.negf (F := Ideal) (φ := .f32) (rA m c))) (td0A m c))))) := by
    dsimp only [V1, W1, W0, hostOps0]
    after_results_simp
    try rfl
  exact (congrFun e (ix2 b 0)).trans (decay_col_at _ _ _ b)

set_option maxHeartbeats 8000000 in
theorem idecay_read (c : Dev nD) (b : Fin 4096) :
    V1 m ρ c main_v31 (ix2 b 0) = decay (aA m c) (rA m c) (td1A m c) b := by
  have e : @Eq (S4096x1.Idx → EReal) (V1 m ρ c main_v31)
      (broadcastInDim S4096x1 ![0] bcast_S4096_S4096x1_0
          (mulf (F := Ideal) (φ := .f32) (broadcastInDim S4096 ![0] bcast_S1_S4096_0 (aA m c))
            (Host.exp (F := Ideal) (φ := .f32) (mulf (F := Ideal) (φ := .f32) (broadcastInDim S4096 ![0] bcast_S1_S4096_0 (Host.negf (F := Ideal) (φ := .f32) (rA m c))) (td1A m c))))) := by
    dsimp only [V1, W1, W0, hostOps0]
    after_results_simp
    try rfl
  exact (congrFun e (ix2 b 0)).trans (decay_col_at _ _ _ b)

end Cert.KernelIdeal.HostReads

end
-- ==== Proof.KernelValue.lean ====
/-
  The two kernels composed.

  The first kernel's three arrays, at the contents the host prelude leaves, are the cell functions of the
  arguments: the new cell state (twice) and the output gate's pre-activation.  The second kernel finds exactly
  those arrays, and the transposed output peephole weights untouched by the first, so the array it writes is the
  new hidden state of the arguments; and it leaves the new cell state's array as it found it.  Hence the program's
  two results.
-/
import proofs.«417413_j34875134443722_3_alg».proof.Proof.KernelRun
import proofs.«417413_j34875134443722_3_alg».proof.Proof.GatesArray
import proofs.«417413_j34875134443722_3_alg».proof.Proof.FinalizeArray
import proofs.«417413_j34875134443722_3_alg».proof.Proof.HostReads

set_option maxRecDepth 16384

noncomputable section

namespace Cert.KernelIdeal.KernelValue

open Cert.KernelIdeal Cert.KernelIdeal.Gen Cert.KernelIdeal.GatesArray Cert.KernelIdeal.FinalizeArray Cert.KernelIdeal.HostReads Cert.LstmCell
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The first kernel's arrays in terms of the arguments -/

theorem c_at (c : Dev nD) (b : Fin 4096) (o : Fin 2048) : V1 m ρ c main_arg4 (ix2 b o) = cA m c (ix2 b o) :=
  congrFun (c_read m ρ c) (ix2 b o)

theorem cy_of_args (c : Dev nD) (b : Fin 4096) (o : Fin 2048) :
    cyAt (V1 m ρ c main_v15) (V1 m ρ c main_v16) (V1 m ρ c main_v17) (V1 m ρ c main_arg4) (V1 m ρ c main_v2) (V1 m ρ c main_v5) (V1 m ρ c main_v7) (V1 m ρ c main_v9) (V1 m ρ c main_v14) (V1 m ρ c main_v24) (V1 m ρ c main_v31) b o = cySpec (xA m c) (td0A m c) (td1A m c) (hA m c) (cA m c) (wihA m c) (whhA m c) (wpiA m c) (wpfA m c) (bihA m c) (bhhA m c) (aA m c) (rA m c) b o := by
  unfold cyAt cySpec
  rw [funext (x_read m ρ c b), funext (h_read m ρ c b), funext (cbf_read m ρ c b), c_at m ρ c b o,
    funext fun g => funext fun k => wih_read m ρ c g k o, funext fun g => funext fun k => whh_read m ρ c g k o,
    funext fun k => wpi_read m ρ c k o, funext fun k => wpf_read m ρ c k o, funext fun g => bias_read m ρ c g o,
    fdecay_read m ρ c b, idecay_read m ρ c b]

theorem opre_of_args (c : Dev nD) (b : Fin 4096) (o : Fin 2048) :
    opreAt (V1 m ρ c main_v15) (V1 m ρ c main_v16) (V1 m ρ c main_v2) (V1 m ρ c main_v5) (V1 m ρ c main_v14) b o = opreSpec (xA m c) (hA m c) (wihA m c) (whhA m c) (bihA m c) (bhhA m c) b o := by
  unfold opreAt opreSpec
  rw [funext (x_read m ρ c b), funext (h_read m ρ c b),
    funext fun g => funext fun k => wih_read m ρ c g k o, funext fun g => funext fun k => whh_read m ρ c g k o,
    funext fun g => bias_read m ρ c g o]

/-! ## What the second kernel finds -/

/-- The new cell state, as the first kernel leaves it. -/
theorem cy_entering (c : Dev nD) : @Eq (S4096x2048.Idx → EReal) (V2 m ρ c main_v32_0) (onGrid (cySpec (xA m c) (td0A m c) (td1A m c) (hA m c) (cA m c) (wihA m c) (whhA m c) (wpiA m c) (wpfA m c) (bihA m c) (bhhA m c) (aA m c) (rA m c))) :=
  ((hF0 m ρ c 11).symm.trans (cy_array (V1 m ρ) c)).trans
    (congrArg onGrid (funext fun b => funext fun o => cy_of_args m ρ c b o))

/-- Its bfloat16 copy: the same numbers. -/
theorem cybf_entering (c : Dev nD) : @Eq (S4096x2048.Idx → EReal) (V2 m ρ c main_v32_1) (onGrid (cySpec (xA m c) (td0A m c) (td1A m c) (hA m c) (cA m c) (wihA m c) (whhA m c) (wpiA m c) (wpfA m c) (bihA m c) (bhhA m c) (aA m c) (rA m c))) :=
  ((hF0 m ρ c 12).symm.trans (cybf_array (V1 m ρ) c)).trans
    (congrArg onGrid (funext fun b => funext fun o => cy_of_args m ρ c b o))

/-- The output gate's pre-activation. -/
theorem opre_entering (c : Dev nD) : @Eq (S4096x2048.Idx → EReal) (V2 m ρ c main_v32_2) (onGrid (opreSpec (xA m c) (hA m c) (wihA m c) (whhA m c) (bihA m c) (bhhA m c))) :=
  ((hF0 m ρ c 13).symm.trans (opre_array (V1 m ρ) c)).trans
    (congrArg onGrid (funext fun b => funext fun o => opre_of_args m ρ c b o))

/-- The transposed output peephole weights: the first kernel does not touch them. -/
theorem wpo_entering (c : Dev nD) (k o : Fin 2048) : V2 m ρ c main_v11 (ix2 k o) = wpoA m c (ix2 o k) :=
  (congrFun (W2_of_ne m ρ c main_v11 (by decide)) (ix2 k o)).trans (wpo_read m ρ c k o)

theorem hy_of_args (c : Dev nD) (b : Fin 4096) (o : Fin 2048) :
    hyAt (V2 m ρ c main_v32_2) (V2 m ρ c main_v32_1) (V2 m ρ c main_v32_0) (V2 m ρ c main_v11) b o = hySpec (xA m c) (td0A m c) (td1A m c) (hA m c) (cA m c) (wihA m c) (whhA m c) (wpiA m c) (wpfA m c) (wpoA m c) (bihA m c) (bhhA m c) (aA m c) (rA m c) b o := by
  unfold hyAt hySpec
  rw [congrFun (opre_entering m ρ c) (ix2 b o), funext fun k => congrFun (cybf_entering m ρ c) (ix2 b k),
    funext fun k => wpo_entering m ρ c k o, congrFun (cy_entering m ρ c) (ix2 b o)]
  simp only [onGrid_ix2]

/-! ## The program's two results -/

theorem result_hy (c : Dev nD) : @Eq (S4096x2048.Idx → EReal) (W3 m ρ c (Proc.devRef .tc main_v33)) (onGrid (hySpec (xA m c) (td0A m c) (td1A m c) (hA m c) (cA m c) (wihA m c) (whhA m c) (wpiA m c) (wpfA m c) (wpoA m c) (bihA m c) (bhhA m c) (aA m c) (rA m c))) :=
  ((W3_arr m ρ c 4).trans (hy_array (V2 m ρ) c)).trans
    (congrArg onGrid (funext fun b => funext fun o => hy_of_args m ρ c b o))

theorem result_cy (c : Dev nD) : @Eq (S4096x2048.Idx → EReal) (W3 m ρ c (Proc.devRef .tc main_v32_0)) (onGrid (cySpec (xA m c) (td0A m c) (td1A m c) (hA m c) (cA m c) (wihA m c) (whhA m c) (wpiA m c) (wpfA m c) (bihA m c) (bhhA m c) (aA m c) (rA m c))) :=
  ((W3_arr m ρ c 2).trans (cy_kept (V2 m ρ) c)).trans (cy_entering m ρ c)

/-- The program's run with its results as functions of the arguments. -/
theorem run : θ_run defs (onTc (τ := τ) (main (F := Ideal))) ⟨m, fun _ => 0, ρ⟩ (fun r => ∀ c : Dev nD,
      r.2.mem ((c.tc : Thread nD τ).loc main_v33) = onGrid (hySpec (xA m c) (td0A m c) (td1A m c) (hA m c) (cA m c) (wihA m c) (whhA m c) (wpiA m c) (wpfA m c) (wpoA m c) (bihA m c) (bhhA m c) (aA m c) (rA m c))
      ∧ r.2.mem ((c.tc : Thread nD τ).loc main_v32_0) = onGrid (cySpec (xA m c) (td0A m c) (td1A m c) (hA m c) (cA m c) (wihA m c) (whhA m c) (wpiA m c) (wpfA m c) (bihA m c) (bhhA m c) (aA m c) (rA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_hy m ρ c), (h c).2.1.trans (result_cy m ρ c), (h c).2.2⟩)
    (Cert.KernelIdeal.ValueRun.run_results m ρ)

end Cert.KernelIdeal.KernelValue

end
-- ==== Proof.RefCells.lean ====
/-
  The reference, entry by entry.

  The reference forms all four gates at once as a [4096, 8192] array: entry (b, n) is row b of x against row n
  of the input weights, plus the input bias at n, plus row b of h against row n of the hidden weights, plus the
  hidden bias at n.  The four gates are its column blocks, so gate g at (b, o) is that entry at n = g * 2048 + o;
  adding the two biases one at a time or as their sum is the same number.  The logistic function is spelt out as
  one over one plus the exponential of the negated argument, which is what the logistic function is on the
  extended reals.  With that, the reference's new cell state and new hidden state at (b, o) are the cell
  functions of the same rows of the same arguments as the kernel's.
-/
import proofs.«417413_j34875134443722_3_alg».proof.Proof.Gen.ReferenceIdeal.Run
import proofs.«417413_j34875134443722_3_alg».proof.Proof.Gen.ReferenceIdeal.Read
import proofs.«417413_j34875134443722_3_alg».proof.Proof.Spec

set_option maxRecDepth 16384

noncomputable section

namespace Cert.ReferenceIdeal.RefCells

open Cert.ReferenceIdeal Cert.ReferenceIdeal.Gen Cert.ReferenceIdeal.Read Cert.LstmCell
open Idealize.ShloMosaic Idealize.ShloMosaic.TcCoe Idealize.ShloMosaic.ValueIdx Idealize.SL.Sem

variable (x0 x3 x4 : (⟨S4096x2048, .f32⟩ : BufTy).Contents (Elt Ideal)) (x1 x2 : (⟨S4096, .f32⟩ : BufTy).Contents (Elt Ideal))
  (x5 x6 : (⟨S8192x2048, .f32⟩ : BufTy).Contents (Elt Ideal)) (x7 x8 x9 : (⟨S2048x2048, .f32⟩ : BufTy).Contents (Elt Ideal))
  (x10 x11 : (⟨S8192, .f32⟩ : BufTy).Contents (Elt Ideal)) (x12 x13 : (⟨S1, .f32⟩ : BufTy).Contents (Elt Ideal))

/-! ## The four gates' pre-activations -/

/-- The [4096, 8192] array of all four gates at (b, n). -/
theorem wide_at (b : Fin 4096) (n : Fin 8192) :
    val_main_v10 (F := Ideal) x0 x3 x5 x6 x10 x11 (ix2 b n)
      = gateSplit (fun k => x0 (ix2 b k)) (fun k => x3 (ix2 b k)) (fun k => x5 (ix2 n k)) (fun k => x6 (ix2 n k)) (x10 (ix1 n)) (x11 (ix1 n)) := by
  rw [val_main_v10_apply, val_main_v7_apply, val_main_v4_apply, val_main_v1_apply, val_main_v6_apply, val_main_v3_apply,
    val_main_v2_apply, val_main_v9_apply, val_main_v8_apply]
  simp only [val_main_v0_apply, val_main_v5_apply]
  have e1 : ∀ k, lidx_main_v1 (ix2 b n) k = ix2 b k := fun k => funext fun a => by
    match a with | ⟨0, _⟩ => rfl | ⟨1, _⟩ => rfl
  have e2 : ∀ k, idx_main_v0 (ridx_main_v1 (ix2 b n) k) = ix2 n k := fun k => funext fun a => by
    match a with | ⟨0, _⟩ => rfl | ⟨1, _⟩ => rfl
  have e3 : ∀ k, lidx_main_v6 (ix2 b n) k = ix2 b k := fun k => funext fun a => by
    match a with | ⟨0, _⟩ => rfl | ⟨1, _⟩ => rfl
  have e4 : ∀ k, idx_main_v5 (ridx_main_v6 (ix2 b n) k) = ix2 n k := fun k => funext fun a => by
    match a with | ⟨0, _⟩ => rfl | ⟨1, _⟩ => rfl
  have e5 : idx_main_v2 (idx_main_v3 (ix2 b n)) = ix1 n := funext fun a => by
    match a with | ⟨0, _⟩ => rfl
  have e6 : idx_main_v8 (idx_main_v9 (ix2 b n)) = ix1 n := funext fun a => by
    match a with | ⟨0, _⟩ => rfl
  simp only [e1, e2, e3, e4, e5, e6]
  rfl

/-- The input gate: columns 0 .. 2047. -/
theorem gate0_at (b : Fin 4096) (o : Fin 2048) :
    val_main_v11 (F := Ideal) x0 x3 x5 x6 x10 x11 (ix2 b o) = gateSplit (fun k => x0 (ix2 b k)) (fun k => x3 (ix2 b k)) (fun k => x5 (ix2 (stacked 0 o) k)) (fun k => x6 (ix2 (stacked 0 o) k)) (x10 (ix1 (stacked 0 o))) (x11 (ix1 (stacked 0 o))) := by
  rw [val_main_v11_apply]
  have e : idx_main_v11 (ix2 b o) = ix2 b (stacked 0 o) := funext fun a => by
    match a with
    | ⟨0, _⟩ => rfl
    | ⟨1, _⟩ => exact Fin.ext (by show o.val = 0 * 2048 + o.val; omega)
  rw [e]
  exact wide_at x0 x3 x5 x6 x10 x11 b (stacked 0 o)

/-- The forget gate: columns 2048 .. 4095. -/
theorem gate1_at (b : Fin 4096) (o : Fin 2048) :
    val_main_v12 (F := Ideal) x0 x3 x5 x6 x10 x11 (ix2 b o) = gateSplit (fun k => x0 (ix2 b k)) (fun k => x3 (ix2 b k)) (fun k => x5 (ix2 (stacked 1 o) k)) (fun k => x6 (ix2 (stacked 1 o) k)) (x10 (ix1 (stacked 1 o))) (x11 (ix1 (stacked 1 o))) := by
  rw [val_main_v12_apply]
  have e : idx_main_v12 (ix2 b o) = ix2 b (stacked 1 o) := funext fun a => by
    match a with
    | ⟨0, _⟩ => rfl
    | ⟨1, _⟩ => exact Fin.ext (by show 2048 + o.val = 1 * 2048 + o.val; omega)
  rw [e]
  exact wide_at x0 x3 x5 x6 x10 x11 b (stacked 1 o)

/-- The candidate gate: columns 4096 .. 6143. -/
theorem gate2_at (b : Fin 4096) (o : Fin 2048) :
    val_main_v13 (F := Ideal) x0 x3 x5 x6 x10 x11 (ix2 b o) = gateSplit (fun k => x0 (ix2 b k)) (fun k => x3 (ix2 b k)) (fun k => x5 (ix2 (stacked 2 o) k)) (fun k => x6 (ix2 (stacked 2 o) k)) (x10 (ix1 (stacked 2 o))) (x11 (ix1 (stacked 2 o))) := by
  rw [val_main_v13_apply]
  have e : idx_main_v13 (ix2 b o) = ix2 b (stacked 2 o) := funext fun a => by
    match a with
    | ⟨0, _⟩ => rfl
    | ⟨1, _⟩ => exact Fin.ext (by show 4096 + o.val = 2 * 2048 + o.val; omega)
  rw [e]
  exact wide_at x0 x3 x5 x6 x10 x11 b (stacked 2 o)

/-- The output gate: columns 6144 .. 8191. -/
theorem gate3_at (b : Fin 4096) (o : Fin 2048) :
    val_main_v14 (F := Ideal) x0 x3 x5 x6 x10 x11 (ix2 b o) = gateSplit (fun k => x0 (ix2 b k)) (fun k => x3 (ix2 b k)) (fun k => x5 (ix2 (stacked 3 o) k)) (fun k => x6 (ix2 (stacked 3 o) k)) (x10 (ix1 (stacked 3 o))) (x11 (ix1 (stacked 3 o))) := by
  rw [val_main_v14_apply]
  have e : idx_main_v14 (ix2 b o) = ix2 b (stacked 3 o) := funext fun a => by
    match a with
    | ⟨0, _⟩ => rfl
    | ⟨1, _⟩ => exact Fin.ext (by show 6144 + o.val = 3 * 2048 + o.val; omega)
  rw [e]
  exact wide_at x0 x3 x5 x6 x10 x11 b (stacked 3 o)

/-! ## The peephole products -/

theorem peep_i_at (b : Fin 4096) (o : Fin 2048) :
    val_main_v16 (F := Ideal) x4 x7 (ix2 b o) = dot (fun k => x4 (ix2 b k)) (fun k => x7 (ix2 o k)) := by
  rw [val_main_v16_apply]
  simp only [val_main_v15_apply]
  have e1 : ∀ k, lidx_main_v16 (ix2 b o) k = ix2 b k := fun k => funext fun a => by
    match a with | ⟨0, _⟩ => rfl | ⟨1, _⟩ => rfl
  have e2 : ∀ k, idx_main_v15 (ridx_main_v16 (ix2 b o) k) = ix2 o k := fun k => funext fun a => by
    match a with | ⟨0, _⟩ => rfl | ⟨1, _⟩ => rfl
  simp only [e1, e2]
  rfl

theorem peep_f_at (b : Fin 4096) (o : Fin 2048) :
    val_main_v25 (F := Ideal) x4 x8 (ix2 b o) = dot (fun k => x4 (ix2 b k)) (fun k => x8 (ix2 o k)) := by
  rw [val_main_v25_apply]
  simp only [val_main_v24_apply]
  have e1 : ∀ k, lidx_main_v25 (ix2 b o) k = ix2 b k := fun k => funext fun a => by
    match a with | ⟨0, _⟩ => rfl | ⟨1, _⟩ => rfl
  have e2 : ∀ k, idx_main_v24 (ridx_main_v25 (ix2 b o) k) = ix2 o k := fun k => funext fun a => by
    match a with | ⟨0, _⟩ => rfl | ⟨1, _⟩ => rfl
  simp only [e1, e2]
  rfl

/-! ## The logistic function, spelt out -/

/-- One over one plus the exponential of the negated argument, with the reference's two copies of the word for
    one, is the logistic function. -/
theorem one_over (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = _
  rw [ofBits_one_f32]
  rfl

/-! ## The three gates after their nonlinearities -/

theorem igate_at (b : Fin 4096) (o : Fin 2048) :
    val_main_v23 (F := Ideal) x0 x3 x4 x5 x6 x7 x10 x11 (ix2 b o)
      = Ideal.logistic (gateSplit (fun k => x0 (ix2 b k)) (fun k => x3 (ix2 b k)) (fun k => x5 (ix2 (stacked 0 o) k)) (fun k => x6 (ix2 (stacked 0 o) k)) (x10 (ix1 (stacked 0 o))) (x11 (ix1 (stacked 0 o))) + dot (fun k => x4 (ix2 b k)) (fun k => x7 (ix2 o k))) := by
  rw [val_main_v23_apply, val_main_v22_apply, val_main_cst_0_apply, val_main_v21_apply, val_main_v20_apply, val_main_cst_apply,
    val_main_v19_apply, val_main_v18_apply, val_main_v17_apply, gate0_at, peep_i_at]
  exact one_over _

theorem fgate_at (b : Fin 4096) (o : Fin 2048) :
    val_main_v32 (F := Ideal) x0 x3 x4 x5 x6 x8 x10 x11 (ix2 b o)
      = Ideal.logistic (gateSplit (fun k => x0 (ix2 b k)) (fun k => x3 (ix2 b k)) (fun k => x5 (ix2 (stacked 1 o) k)) (fun k => x6 (ix2 (stacked 1 o) k)) (x10 (ix1 (stacked 1 o))) (x11 (ix1 (stacked 1 o))) + dot (fun k => x4 (ix2 b k)) (fun k => x8 (ix2 o k))) := by
  rw [val_main_v32_apply, val_main_v31_apply, val_main_cst_2_apply, val_main_v30_apply, val_main_v29_apply, val_main_cst_1_apply,
    val_main_v28_apply, val_main_v27_apply, val_main_v26_apply, gate1_at, peep_f_at]
  exact one_over _

theorem ggate_at (b : Fin 4096) (o : Fin 2048) :
    val_main_v33 (F := Ideal) x0 x3 x5 x6 x10 x11 (ix2 b o) = Ideal.tanh (gateSplit (fun k => x0 (ix2 b k)) (fun k => x3 (ix2 b k)) (fun k => x5 (ix2 (stacked 2 o) k)) (fun k => x6 (ix2 (stacked 2 o) k)) (x10 (ix1 (stacked 2 o))) (x11 (ix1 (stacked 2 o)))) := by
  rw [val_main_v33_apply, gate2_at]
  rfl

/-! ## The decay factors -/

theorem fdecay_at (b : Fin 4096) (o : Fin 2048) :
    val_main_v48 (F := Ideal) x1 x12 x13 (ix2 b o) = decay x12 x13 x1 b := by
  rw [val_main_v48_apply, val_main_v40_apply, val_main_v39_apply, val_main_v38_apply, val_main_v37_apply, val_main_v36_apply,
    val_main_v35_apply, val_main_v34_apply]
  have e1 : idx_main_v40 (idx_main_v48 (ix2 b o)) = ix1 b := funext fun a => by
    match a with | ⟨0, _⟩ => rfl
  have e2 : idx_main_v38 (ix1 b) = ix1 0 := funext fun a => by
    match a with | ⟨0, _⟩ => rfl
  have e3 : idx_main_v35 (ix1 b) = ix1 0 := funext fun a => by
    match a with | ⟨0, _⟩ => rfl
  rw [e1, e2, e3]
  rfl

theorem idecay_at (b : Fin 4096) (o : Fin 2048) :
    val_main_v50 (F := Ideal) x2 x12 x13 (ix2 b o) = decay x12 x13 x2 b := by
  rw [val_main_v50_apply, val_main_v47_apply, val_main_v46_apply, val_main_v45_apply, val_main_v44_apply, val_main_v43_apply,
    val_main_v42_apply, val_main_v41_apply]
  have e1 : idx_main_v47 (idx_main_v50 (ix2 b o)) = ix1 b := funext fun a => by
    match a with | ⟨0, _⟩ => rfl
  have e2 : idx_main_v45 (ix1 b) = ix1 0 := funext fun a => by
    match a with | ⟨0, _⟩ => rfl
  have e3 : idx_main_v42 (ix1 b) = ix1 0 := funext fun a => by
    match a with | ⟨0, _⟩ => rfl
  rw [e1, e2, e3]
  rfl

/-! ## The two results -/

/-- The reference's new cell state at (b, o) is the cell function of the arguments. -/
theorem cy_at (b : Fin 4096) (o : Fin 2048) :
    val_main_v54 (F := Ideal) x0 x1 x2 x3 x4 x5 x6 x7 x8 x10 x11 x12 x13 (ix2 b o)
      = cySpec x0 x1 x2 x3 x4 x5 x6 x7 x8 x10 x11 x12 x13 b o := by
  rw [val_main_v54_apply, val_main_v52_apply, val_main_v53_apply, val_main_v49_apply, val_main_v51_apply,
    fdecay_at, idecay_at, fgate_at, igate_at, ggate_at]
  unfold cySpec cyCell
  simp only [gateSplit_eq]
  rfl

/-- The reference's new hidden state at (b, o) is the cell function of the arguments. -/
theorem hy_at (b : Fin 4096) (o : Fin 2048) :
    val_main_v65 (F := Ideal) x0 x1 x2 x3 x4 x5 x6 x7 x8 x9 x10 x11 x12 x13 (ix2 b o)
      = hySpec x0 x1 x2 x3 x4 x5 x6 x7 x8 x9 x10 x11 x12 x13 b o := by
  rw [val_main_v65_apply, val_main_v64_apply, val_main_v63_apply, val_main_v62_apply, val_main_cst_4_apply, val_main_v61_apply,
    val_main_v60_apply, val_main_cst_3_apply, val_main_v59_apply, val_main_v58_apply, val_main_v57_apply, gate3_at,
    val_main_v56_apply]
  simp only [val_main_v55_apply]
  have e1 : ∀ k, lidx_main_v56 (ix2 b o) k = ix2 b k := fun k => funext fun a => by
    match a with | ⟨0, _⟩ => rfl | ⟨1, _⟩ => rfl
  have e2 : ∀ k, idx_main_v55 (ridx_main_v56 (ix2 b o) k) = ix2 o k := fun k => funext fun a => by
    match a with | ⟨0, _⟩ => rfl | ⟨1, _⟩ => rfl
  simp only [e1, e2, cy_at]
  rw [one_over]
  unfold hySpec hyCell opreSpec opreCell
  simp only [gateSplit_eq]
  rfl

/-- As whole arrays. -/
theorem cy_array :
    val_main_v54 (F := Ideal) x0 x1 x2 x3 x4 x5 x6 x7 x8 x10 x11 x12 x13 = onGrid (cySpec x0 x1 x2 x3 x4 x5 x6 x7 x8 x10 x11 x12 x13) := by
  funext i
  obtain ⟨b, o, rfl⟩ : ∃ (b : Fin 4096) (o : Fin 2048), i = ix2 b o := ⟨i 0, i 1, eq_ix2 i⟩
  rw [onGrid_ix2]
  exact cy_at _ _ _ _ _ _ _ _ _ _ _ _ _ b o

theorem hy_array :
    val_main_v65 (F := Ideal) x0 x1 x2 x3 x4 x5 x6 x7 x8 x9 x10 x11 x12 x13 = onGrid (hySpec x0 x1 x2 x3 x4 x5 x6 x7 x8 x9 x10 x11 x12 x13) := by
  funext i
  obtain ⟨b, o, rfl⟩ : ∃ (b : Fin 4096) (o : Fin 2048), i = ix2 b o := ⟨i 0, i 1, eq_ix2 i⟩
  rw [onGrid_ix2]
  exact hy_at _ _ _ _ _ _ _ _ _ _ _ _ _ _ b o

end Cert.ReferenceIdeal.RefCells

end
-- ==== Proof.lean ====
/-
  A peephole LSTM cell with exponential time decay, computed by two kernels, against its jnp reference.

  Both programs compute, for batch row b and output column o,
      pre g = x[b] · W_ih[g*2048+o] + h[b] · W_hh[g*2048+o] + b_ih[g*2048+o] + b_hh[g*2048+o]   (g = 0 .. 3),
      i = σ(pre 0 + c[b] · W_pi[o]),  f = σ(pre 1 + c[b] · W_pf[o]),  g~ = tanh (pre 2),
      cy = (a · e^(-r · td0[b]) · f) · c[b, o] + (a · e^(-r · td1[b]) · i) · g~,
      hy = σ(pre 3 + cy[b] · W_po[o]) · tanh cy,
  and return (hy, cy).  The kernel program casts its matrix operands to bfloat16, lays the weights out transposed,
  adds the two biases before the kernels, tiles the first kernel 8 x 16 and the second in 16 bands, and writes
  σ as one operation; the reference forms all four gates as one [4096, 8192] product, adds the biases one at a
  time and writes σ x as 1 / (1 + e^(-x)).  On the extended reals none of that changes a number: a change of
  float format is the identity, a matrix product into a zero accumulator is the row-by-column sum on either side,
  + is commutative and associative (infinities included), and the logistic function IS that quotient.  So the
  algebraic claim needs no finiteness of the inputs, and the precondition is never opened.

  Proof/Cells.lean and Proof/Spec.lean state the cell; Proof/GatesPoint.lean, Proof/FinalizePoint.lean read one grid
  point of each kernel; Proof/GatesArray.lean, Proof/FinalizeArray.lean pass from the points' blocks to whole arrays;
  Proof/HostReads.lean reads the operand arrays off the arguments; Proof/KernelRun.lean and Proof/KernelValue.lean
  give the kernel program's run with its results named; Proof/RefCells.lean reads the reference entry by entry.
-/
import proofs.«417413_j34875134443722_3_alg».proof.Defs
import proofs.«417413_j34875134443722_3_alg».proof.Proof.Gen.Kernel
import proofs.«417413_j34875134443722_3_alg».proof.Proof.Gen.Kernel.Skeleton
import proofs.«417413_j34875134443722_3_alg».proof.Proof.Gen.Kernel.Launch
import proofs.«417413_j34875134443722_3_alg».proof.Proof.Gen.Kernel.Points
import proofs.«417413_j34875134443722_3_alg».proof.Proof.Gen.Kernel.Frame
import proofs.«417413_j34875134443722_3_alg».proof.Proof.Gen.KernelIdeal
import proofs.«417413_j34875134443722_3_alg».proof.Proof.Gen.KernelIdeal.Skeleton
import proofs.«417413_j34875134443722_3_alg».proof.Proof.Gen.KernelIdeal.Launch
import proofs.«417413_j34875134443722_3_alg».proof.Proof.Gen.KernelIdeal.Points
import proofs.«417413_j34875134443722_3_alg».proof.Proof.Gen.KernelIdeal.Frame
import proofs.«417413_j34875134443722_3_alg».proof.Proof.Gen.ReferenceIdeal
import proofs.«417413_j34875134443722_3_alg».proof.Proof.Gen.ReferenceIdeal.Run
import proofs.«417413_j34875134443722_3_alg».proof.Proof.Gen.ReferenceIdeal.Read
import proofs.«417413_j34875134443722_3_alg».proof.Proof.Gen.Pre_finite_inputs
import proofs.«417413_j34875134443722_3_alg».proof.Proof.KernelValue
import proofs.«417413_j34875134443722_3_alg».proof.Proof.RefCells
import Idealize.ShloMosaic.Adequacy
import Idealize.ShloMosaic.Init

set_option maxRecDepth 16384

noncomputable section

namespace Cert.Proof

open Idealize.ShloMosaic Idealize.SL.Sem Cert.LstmCell

/-- The kernel program as printed runs and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Memories that agree on the arguments give the reference the same new hidden state … -/
theorem hy_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    onGrid (hySpec (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) = onGrid (hySpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) := by
  obtain ⟨h0, h1, h2, h3, h4, h5, h6, h7, h8, h9, h10, h11, h12, h13⟩ := hagree
  rw [h0, h1, h2, h3, h4, h5, h6, h7, h8, h9, h10, h11, h12, h13]

/-- … and the same new cell state. -/
theorem cy_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    onGrid (cySpec (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) = onGrid (cySpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) := by
  obtain ⟨h0, h1, h2, h3, h4, h5, h6, h7, h8, h9, h10, h11, h12, h13⟩ := hagree
  rw [h0, h1, h2, h3, h4, h5, h6, h7, h8, h10, h11, h12, h13]

/-- From memories that agree on the arguments, both programs end with the new hidden state and the new cell state
    of those arguments: the kernel program by its two kernels composed, the reference entry by entry. -/
theorem algebraic : Cert.algebraic_KernelIdeal_ReferenceIdeal := by
  intro m ρ m' ρ' _ hagree
  refine ⟨fun c => onGrid (hySpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))),
    fun c => onGrid (cySpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))),
    Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v65_eq, Cert.ReferenceIdeal.RefCells.hy_array]
    exact hy_agree m m' c (hagree c)
  · rw [Cert.ReferenceIdeal.Read.val_main_v54_eq, Cert.ReferenceIdeal.RefCells.cy_array]
    exact cy_agree m m' c (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
